-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S64 .f32) (main_arg6 : FVec F S64x40 .f32) (main_arg7 : FVec F S40 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x40 .f32 := Host.absf main_arg6
  let main_cst_8 : FVec F S_ .f32 := constant S_ .f32 0x7F800000#32
  let main_v25 : FVec F S64x40 .f32 := broadcastInDim S64x40 ![] bcast_S_S64x40 main_cst_8
  let main_v26 : IVec S64x40 1 := cmpf .olt main_v24 main_v25
  let main_c_9 : IVec S_ 1 := constantI S_ 1 1#1
  let main_v27 : IVec S_ 1 := (fun x v => Host.reduce IntOp.andi x v reducesTo_S64x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x64 .f32) (main_arg3 : FVec F S64 .f32) (main_arg4 : FVec F S64x64 .f32) (main_arg5 : FVec F S64 .f32) (main_arg6 : FVec F S64x40 .f32) (main_arg7 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S51200x128 : Shape := ⟨2, ![51200, 128]⟩
abbrev S1 : Shape := ⟨1, ![1]⟩
abbrev S51200x64 : Shape := ⟨2, ![51200, 64]⟩
abbrev S2048x128 : Shape := ⟨2, ![2048, 128]⟩
abbrev S2048x64 : Shape := ⟨2, ![2048, 64]⟩
abbrev S50000x64 : Shape := ⟨2, ![50000, 64]⟩
abbrev S850000x64 : Shape := ⟨2, ![850000, 64]⟩
abbrev S1x64 : Shape := ⟨2, ![1, 64]⟩
abbrev S51200x40 : Shape := ⟨2, ![51200, 40]⟩
abbrev S2048x40 : Shape := ⟨2, ![2048, 40]⟩
abbrev S50000x40 : Shape := ⟨2, ![50000, 40]⟩
abbrev S850000x40 : Shape := ⟨2, ![850000, 40]⟩
abbrev S1x40 : Shape := ⟨2, ![1, 40]⟩

abbrev nBuf : Space → Nat
  | .hbm => 135
  | .vmem => 15
  | .smem => 0
  | _ => 0

abbrev hbmTy0_0 (i : Nat) : BufTy := match i % 128 with
  | 0 => ⟨S50000x128, .f32⟩
  | 1 => ⟨S2x800000, .i32⟩
  | 2 => ⟨S128x64, .f32⟩
  | 3 => ⟨S64, .f32⟩
  | 4 => ⟨S64x64, .f32⟩
  | 5 => ⟨S64, .f32⟩
  | 6 => ⟨S64x40, .f32⟩
  | 7 => ⟨S40, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S_, .f32⟩
  | 25 => ⟨S50000, .f32⟩
  | 26 => ⟨S50000, .f32⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S_, .f32⟩
  | 52 => ⟨S51200x128, .f32⟩
  | 53 => ⟨S_, .i32⟩
  | 54 => ⟨S1, .i32⟩
  | 55 => ⟨S51200x128, .f32⟩
  | 56 => ⟨S51200x64, .f32⟩
  | 57 => ⟨S50000x64, .f32⟩
  | 58 => ⟨S_, .i32⟩
  | 59 => ⟨S850000, .i32⟩
  | 60 => ⟨S850000, .i1⟩
  | 61 => ⟨S_, .i32⟩
  | 62 => ⟨S850000, .i32⟩
  | 63 => ⟨S850000, .i32⟩
  | 64 => ⟨S850000, .i32⟩
  | 65 => ⟨S850000x1, .i32⟩
  | 66 => ⟨S850000x64, .f32⟩
  | 67 => ⟨S850000x1, .f32⟩
  | 68 => ⟨S850000x64, .f32⟩
  | 69 => ⟨S850000x64, .f32⟩
  | 70 => ⟨S_, .f32⟩
  | 71 => ⟨S50000x64, .f32⟩
  | 72 => ⟨S850000x1, .i32⟩
  | 73 => ⟨S50000x64, .f32⟩
  | 74 => ⟨S1x64, .f32⟩
  | 75 => ⟨S50000x64, .f32⟩
  | 76 => ⟨S50000x64, .f32⟩
  | 77 => ⟨S_, .f32⟩
  | 78 => ⟨S50000x64, .f32⟩
  | 79 => ⟨S50000x64, .f32⟩
  | 80 => ⟨S_, .f32⟩
  | 81 => ⟨S51200x64, .f32⟩
  | 82 => ⟨S_, .i32⟩
  | 83 => ⟨S1, .i32⟩
  | 84 => ⟨S51200x64, .f32⟩
  | 85 => ⟨S51200x64, .f32⟩
  | 86 => ⟨S50000x64, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000x64, .f32⟩
  | 96 => ⟨S850000x1, .f32⟩
  | 97 => ⟨S850000x64, .f32⟩
  | 98 => ⟨S850000x64, .f32⟩
  | 99 => ⟨S_, .f32⟩
  | 100 => ⟨S50000x64, .f32⟩
  | 101 => ⟨S850000x1, .i32⟩
  | 102 => ⟨S50000x64, .f32⟩
  | 103 => ⟨S1x64, .f32⟩
  | 104 => ⟨S50000x64, .f32⟩
  | 105 => ⟨S50000x64, .f32⟩
  | 106 => ⟨S_, .f32⟩
  | 107 => ⟨S50000x64, .f32⟩
  | 108 => ⟨S50000x64, .f32⟩
  | 109 => ⟨S_, .f32⟩
  | 110 => ⟨S51200x64, .f32⟩
  | 111 => ⟨S_, .i32⟩
  | 112 => ⟨S1, .i32⟩
  | 113 => ⟨S51200x64, .f32⟩
  | 114 => ⟨S51200x40, .f32⟩
  | 115 => ⟨S50000x40, .f32⟩
  | 116 => ⟨S_, .i32⟩
  | 117 => ⟨S850000, .i32⟩
  | 118 => ⟨S850000, .i1⟩
  | 119 => ⟨S_, .i32⟩
  | 120 => ⟨S850000, .i32⟩
  | 121 => ⟨S850000, .i32⟩
  | 122 => ⟨S850000, .i32⟩
  | 123 => ⟨S850000x1, .i32⟩
  | 124 => ⟨S850000x40, .f32⟩
  | 125 => ⟨S850000x1, .f32⟩
  | 126 => ⟨S850000x40, .f32⟩
  | 127 => ⟨S850000x40, .f32⟩
  | _ => ⟨S50000x128, .f32⟩

abbrev hbmTy0_1 (i : Nat) : BufTy := match i % 128 with
  | 0 => ⟨S_, .f32⟩
  | 1 => ⟨S50000x40, .f32⟩
  | 2 => ⟨S850000x1, .i32⟩
  | 3 => ⟨S50000x40, .f32⟩
  | 4 => ⟨S1x40, .f32⟩
  | 5 => ⟨S50000x40, .f32⟩
  | 6 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S128x64, .f32⟩
  | .local _ .vmem, ⟨3, _⟩ => ⟨S2048x64, .f32⟩
  | .local _ .vmem, ⟨4, _⟩ => ⟨S2048x64, .f32⟩
  | .local _ .vmem, ⟨5, _⟩ => ⟨S2048x64, .f32⟩
  | .local _ .vmem, ⟨6, _⟩ => ⟨S2048x64, .f32⟩
  | .local _ .vmem, ⟨7, _⟩ => ⟨S64x64, .f32⟩
  | .local _ .vmem, ⟨8, _⟩ => ⟨S2048x64, .f32⟩
  | .local _ .vmem, ⟨9, _⟩ => ⟨S2048x64, .f32⟩
  | .local _ .vmem, ⟨10, _⟩ => ⟨S2048x64, .f32⟩
  | .local _ .vmem, ⟨11, _⟩ => ⟨S2048x64, .f32⟩
  | .local _ .vmem, ⟨12, _⟩ => ⟨S64x40, .f32⟩
  | .local _ .vmem, ⟨13, _⟩ => ⟨S2048x40, .f32⟩
  | .local _ .vmem, ⟨14, _⟩ => ⟨S2048x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_c_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_9 : Ref sig .tc := ⟨.hbm, 58, rfl⟩
abbrev main_v37 : Ref sig .tc := ⟨.hbm, 59, rfl⟩
abbrev main_v38 : Ref sig .tc := ⟨.hbm, 60, rfl⟩
abbrev main_c_10 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_11 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_call1_cst : Ref sig .tc := ⟨.hbm, 77, rfl⟩
abbrev main_call1_v0 : Ref sig .tc := ⟨.hbm, 78, rfl⟩
abbrev main_v53 : Ref sig .tc := ⟨.hbm, 79, rfl⟩
abbrev main_cst_12 : Ref sig .tc := ⟨.hbm, 80, rfl⟩
abbrev main_v54 : Ref sig .tc := ⟨.hbm, 81, rfl⟩
abbrev main_c_13 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_call2_cst : Ref sig .tc := ⟨.hbm, 106, rfl⟩
abbrev main_call2_v0 : Ref sig .tc := ⟨.hbm, 107, rfl⟩
abbrev main_v75 : Ref sig .tc := ⟨.hbm, 108, rfl⟩
abbrev main_cst_17 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_c_19 : Ref sig .tc := ⟨.hbm, 116, rfl⟩
abbrev main_v81 : Ref sig .tc := ⟨.hbm, 117, rfl⟩
abbrev main_v82 : Ref sig .tc := ⟨.hbm, 118, rfl⟩
abbrev main_c_20 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_21 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S51200x128 : S_.BroadcastsInDim S51200x128 (![] : Fin 0 → Fin S51200x128.rank)
  bcast_S_S1 : S_.BroadcastsInDim S1 (![] : Fin 0 → Fin S1.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2048x64_S2048x64_0_0 : ∀ a, (![0, 0] : Fin 2 → Nat) a + S2048x64.size a ≤ S2048x64.size a
  h_S2048x64 : 0 < S2048x64.numel
  slices_S51200x64_S50000x64_0_0 : S51200x64.Slices ![0, 0] S50000x64
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S51200x64 : S_.BroadcastsInDim S51200x64 (![] : Fin 0 → Fin S51200x64.rank)
  shapeCasts_S2048x64_S2048x64 : S2048x64.ShapeCasts S2048x64
  inb_S64x64_S64x64_0_0 : ∀ a, (![0, 0] : Fin 2 → Nat) a + S64x64.size a ≤ S64x64.size a
  h_S64x64 : 0 < S64x64.numel
  inb_S64x40_S64x40_0_0 : ∀ a, (![0, 0] : Fin 2 → Nat) a + S64x40.size a ≤ S64x40.size a
  h_S64x40 : 0 < S64x40.numel
  inb_S2048x40_S2048x40_0_0 : ∀ a, (![0, 0] : Fin 2 → Nat) a + S2048x40.size a ≤ S2048x40.size a
  h_S2048x40 : 0 < S2048x40.numel
  slices_S51200x40_S50000x40_0_0 : S51200x40.Slices ![0, 0] S50000x40
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  scatter_S51200x128_S1_S50000x128_01_n_0_0_wf : ScatterDims.WF S51200x128 S1 S50000x128 [0, 1] [] [0] 0
  dot_S2048x128_S128x64_S2048x64_1_0_0_1_n_n_wf : DotDims.WF S2048x128 S128x64 S2048x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  scatter_S51200x64_S1_S50000x64_01_n_0_0_wf : ScatterDims.WF S51200x64 S1 S50000x64 [0, 1] [] [0] 0
  dot_S2048x64_S64x64_S2048x64_1_0_0_1_n_n_wf : DotDims.WF S2048x64 S64x64 S2048x64 [1] [0] [0] [1] [] []
  dot_S2048x64_S64x40_S2048x40_1_0_0_1_n_n_wf : DotDims.WF S2048x64 S64x40 S2048x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S51200x128.size a
  hwx0_0 : ∀ i : grid0.Coords, EltTy.bits .f32 = 32 ∨ (Rect.block (s := S51200x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S51200x64.size a
  hwx0_2 : ∀ i : grid0.Coords, EltTy.bits .f32 = 32 ∨ (Rect.block (s := S51200x64) S2048x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S51200x64.size a
  hwx1_0 : ∀ i : grid1.Coords, EltTy.bits .f32 = 32 ∨ (Rect.block (s := S51200x64) S2048x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S51200x64.size a
  hwx1_2 : ∀ i : grid1.Coords, EltTy.bits .f32 = 32 ∨ (Rect.block (s := S51200x64) S2048x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x64.size a ≤ S51200x64.size a
  hwx2_0 : ∀ i : grid2.Coords, EltTy.bits .f32 = 32 ∨ (Rect.block (s := S51200x64) S2048x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x40.size a ≤ S64x40.size a
  hwx2_1 : ∀ i : grid2.Coords, EltTy.bits .f32 = 32 ∨ (Rect.block (s := S64x40) S64x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x40.size a ≤ S51200x40.size a
  hwx2_2 : ∀ i : grid2.Coords, EltTy.bits .f32 = 32 ∨ (Rect.block (s := S51200x40) S2048x40.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def scatter_S51200x128_S1_S50000x128_01_n_0_0 : ScatterDims S51200x128 S1 S50000x128 where
  updateWindowDims := [0, 1]
  insertedWindowDims := []
  scatterDimsToOperandDims := [0]
  indexVectorDim := 0
  wf := scatter_S51200x128_S1_S50000x128_01_n_0_0_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def scatter_S51200x64_S1_S50000x64_01_n_0_0 : ScatterDims S51200x64 S1 S50000x64 where
  updateWindowDims := [0, 1]
  insertedWindowDims := []
  scatterDimsToOperandDims := [0]
  indexVectorDim := 0
  wf := scatter_S51200x64_S1_S50000x64_01_n_0_0_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x40_S2048x40_1_0_0_1_n_n : DotDims S2048x64 S64x40 S2048x40 where
  lhsContracting := [1]
  rhsContracting := [0]
  lhsNonContracting := [0]
  rhsNonContracting := [1]
  lhsBatch := []
  rhsBatch := []
  wf := dot_S2048x64_S64x40_S2048x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_v34) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v56) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v57) S2048x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v78) S2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v79) S2048x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S50000x40 : Shape := ⟨2, ![50000, 40]⟩
abbrev S850000x40 : Shape := ⟨2, ![850000, 40]⟩
abbrev S1x40 : Shape := ⟨2, ![1, 40]⟩

abbrev nBuf : Space → Nat
  | .hbm => 117
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x40, .f32⟩
  | .hbm, ⟨7, _⟩ => ⟨S40, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x64, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x64, .f32⟩
  | .hbm, ⟨61, _⟩ => ⟨S850000x1, .f32⟩
  | .hbm, ⟨62, _⟩ => ⟨S850000x64, .f32⟩
  | .hbm, ⟨63, _⟩ => ⟨S850000x64, .f32⟩
  | .hbm, ⟨64, _⟩ => ⟨S_, .f32⟩
  | .hbm, ⟨65, _⟩ => ⟨S50000x64, .f32⟩
  | .hbm, ⟨66, _⟩ => ⟨S850000x1, .i32⟩
  | .hbm, ⟨67, _⟩ => ⟨S50000x64, .f32⟩
  | .hbm, ⟨68, _⟩ => ⟨S1x64, .f32⟩
  | .hbm, ⟨69, _⟩ => ⟨S50000x64, .f32⟩
  | .hbm, ⟨70, _⟩ => ⟨S50000x64, .f32⟩
  | .hbm, ⟨71, _⟩ => ⟨S_, .f32⟩
  | .hbm, ⟨72, _⟩ => ⟨S50000x64, .f32⟩
  | .hbm, ⟨73, _⟩ => ⟨S50000x64, .f32⟩
  | .hbm, ⟨74, _⟩ => ⟨S50000x64, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000x64, .f32⟩
  | .hbm, ⟨84, _⟩ => ⟨S850000x1, .f32⟩
  | .hbm, ⟨85, _⟩ => ⟨S850000x64, .f32⟩
  | .hbm, ⟨86, _⟩ => ⟨S850000x64, .f32⟩
  | .hbm, ⟨87, _⟩ => ⟨S_, .f32⟩
  | .hbm, ⟨88, _⟩ => ⟨S50000x64, .f32⟩
  | .hbm, ⟨89, _⟩ => ⟨S850000x1, .i32⟩
  | .hbm, ⟨90, _⟩ => ⟨S50000x64, .f32⟩
  | .hbm, ⟨91, _⟩ => ⟨S1x64, .f32⟩
  | .hbm, ⟨92, _⟩ => ⟨S50000x64, .f32⟩
  | .hbm, ⟨93, _⟩ => ⟨S50000x64, .f32⟩
  | .hbm, ⟨94, _⟩ => ⟨S_, .f32⟩
  | .hbm, ⟨95, _⟩ => ⟨S50000x64, .f32⟩
  | .hbm, ⟨96, _⟩ => ⟨S50000x64, .f32⟩
  | .hbm, ⟨97, _⟩ => ⟨S50000x40, .f32⟩
  | .hbm, ⟨98, _⟩ => ⟨S_, .i32⟩
  | .hbm, ⟨99, _⟩ => ⟨S850000, .i32⟩
  | .hbm, ⟨100, _⟩ => ⟨S850000, .i1⟩
  | .hbm, ⟨101, _⟩ => ⟨S_, .i32⟩
  | .hbm, ⟨102, _⟩ => ⟨S850000, .i32⟩
  | .hbm, ⟨103, _⟩ => ⟨S850000, .i32⟩
  | .hbm, ⟨104, _⟩ => ⟨S850000, .i32⟩
  | .hbm, ⟨105, _⟩ => ⟨S850000x1, .i32⟩
  | .hbm, ⟨106, _⟩ => ⟨S850000x40, .f32⟩
  | .hbm, ⟨107, _⟩ => ⟨S850000x1, .f32⟩
  | .hbm, ⟨108, _⟩ => ⟨S850000x40, .f32⟩
  | .hbm, ⟨109, _⟩ => ⟨S850000x40, .f32⟩
  | .hbm, ⟨110, _⟩ => ⟨S_, .f32⟩
  | .hbm, ⟨111, _⟩ => ⟨S50000x40, .f32⟩
  | .hbm, ⟨112, _⟩ => ⟨S850000x1, .i32⟩
  | .hbm, ⟨113, _⟩ => ⟨S50000x40, .f32⟩
  | .hbm, ⟨114, _⟩ => ⟨S1x40, .f32⟩
  | .hbm, ⟨115, _⟩ => ⟨S50000x40, .f32⟩
  | .hbm, ⟨116, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  dot_S50000x64_S64x40_S50000x40_1_0_0_1_n_n_wf : DotDims.WF S50000x64 S64x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x40_S50000x40_1_0_0_1_n_n : DotDims S50000x64 S64x40 S50000x40 where
  lhsContracting := [1]
  rhsContracting := [0]
  lhsNonContracting := [0]
  rhsNonContracting := [1]
  lhsBatch := []
  rhsBatch := []
  wf := dot_S50000x64_S64x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.Spec.lean ====
/-
  The three-layer graph convolution both programs compute, as one function of the inputs with the three linear layers
  left as parameters.

  Nodes are 0 … 49999; the edge list (2 × 800000 integer words) gets one self loop per node appended, giving 850000
  sources `srcOf` and targets `dstOf`. A node's degree is the number of edges whose target it is; `dinvOf` is
  1/sqrt(max(deg, 1)) where deg > 0 and 0 elsewhere; an edge's weight `normOf` is the product of `dinvOf` at its
  (wrapped) source and at its (wrapped) target. A layer `agg` gathers the rows of a node matrix at the edges' sources,
  scales each by its edge's weight, adds the rows up at the edges' targets, and adds a bias row; `relu` is the maximum
  with zero. `net L₁ L₂ L₃` is agg ∘ L₃ ∘ relu ∘ agg ∘ L₂ ∘ relu ∘ agg ∘ L₁.

  Also here: the zero-padding of a 50000-row matrix to 51200 rows (`pad`), and the first 50000 rows of a 51200-row
  matrix (`rows`), which only one of the two programs uses around its linear layers.

  Everything is stated over an arbitrary float family: nothing here is arithmetic, only the composition.
-/
import proofs.«417703_j66640712565428_3_alg».proof.Proof.Gen.KernelIdeal

noncomputable section

namespace Cert.Gcn

open Cert.KernelIdeal Cert.KernelIdeal.Facts₀ Cert.KernelIdeal.Facts Idealize.ShloMosaic Idealize.ShloMosaic.TcCoe

variable {F : FTy → Type} [FloatOps F]

/-- The contents of an array of shape `s` and element type `e`. -/
abbrev Arr (F : FTy → Type) (s : Shape) (e : EltTy) : Type := (⟨s, e⟩ : BufTy).Contents (Elt F)

/-- Edge sources: row 0 of the edge list, then every node once (its self loop). -/
def srcOf (ei : Arr F S2x800000 .i32) : Arr F S850000 .i32 :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- Edge targets: row 1 of the edge list, then every node once. -/
def dstOf (ei : Arr F S2x800000 .i32) : Arr F S850000 .i32 :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- A negative index word counts from the end: `v + 50000` where `v < 0`, else `v`. -/
def wrap (v : Arr F S850000 .i32) : Arr F S850000 .i32 :=
  select (cmpi .slt v (broadcastInDim S850000 ![] bcast_S_S850000 (constantI S_ 32 0#32))) (addi v (broadcastInDim S850000 ![] bcast_S_S850000 (constantI S_ 32 50000#32))) v

/-- A node's degree: the ones of all edges added up at the edges' targets. -/
def degOf (d : Arr F S850000 .i32) : Arr F S50000 .f32 :=
  Host.scatterAdd scatter_S50000_S850000x1_S850000_n_0_0_1 (broadcastInDim S50000 ![] bcast_S_S50000 (constant S_ .f32 0x00000000#32)) (broadcastInDim S850000x1 ![0] bcast_S850000_S850000x1_0 d) (broadcastInDim S850000 ![] bcast_S_S850000 (constant S_ .f32 0x3F800000#32))

/-- 1/sqrt(max(deg, 1)) where the degree is positive, 0 elsewhere. -/
def dinvOf (d : Arr F S850000 .i32) : Arr F S50000 .f32 :=
  select (cmpf (F := F) .ogt (degOf d) (broadcastInDim S50000 ![] bcast_S_S50000 (constant S_ .f32 0x00000000#32))) (Host.rsqrt (maximumf (degOf d) (broadcastInDim S50000 ![] bcast_S_S50000 (constant S_ .f32 0x3F800000#32)))) (broadcastInDim S50000 ![] bcast_S_S50000 (id (constant S_ .f32 0x00000000#32)))

/-- An edge's weight: `dinvOf` at its source times `dinvOf` at its target. -/
def normOf (s d : Arr F S850000 .i32) : Arr F S850000 .f32 :=
  mulf (Host.gather gather_S50000_S850000x1_S850000_n_0_n_n_0_1_1 (dinvOf d) (broadcastInDim S850000x1 ![0] bcast_S850000_S850000x1_0 (wrap s))) (Host.gather gather_S50000_S850000x1_S850000_n_0_n_n_0_1_1 (dinvOf d) (broadcastInDim S850000x1 ![0] bcast_S850000_S850000x1_0 (wrap d)))

/-- One aggregation at width 64: rows gathered at the sources, scaled by the edge weights, summed at the targets, plus the bias. -/
def agg64 (lin : Arr F S50000x64 .f32) (s d : Arr F S850000 .i32) (n : Arr F S850000 .f32) (b : Arr F S64 .f32) : Arr F S50000x64 .f32 :=
  addf (Host.scatterAdd scatter_S50000x64_S850000x1_S850000x64_1_0_0_1 (broadcastInDim S50000x64 ![] bcast_S_S50000x64 (constant S_ .f32 0x00000000#32)) (broadcastInDim S850000x1 ![0] bcast_S850000_S850000x1_0 d) (mulf (Host.gather gather_S50000x64_S850000x1_S850000x64_1_0_n_n_0_1_164 lin (broadcastInDim S850000x1 ![0] bcast_S850000_S850000x1_0 (wrap s))) (broadcastInDim S850000x64 ![0, 1] bcast_S850000x1_S850000x64_0_1 (broadcastInDim S850000x1 ![0] bcast_S850000_S850000x1_0 n)))) (broadcastInDim S50000x64 ![0, 1] bcast_S1x64_S50000x64_0_1 (broadcastInDim S1x64 ![1] bcast_S64_S1x64_1 b))

/-- The same at width 40. -/
def agg40 (lin : Arr F S50000x40 .f32) (s d : Arr F S850000 .i32) (n : Arr F S850000 .f32) (b : Arr F S40 .f32) : Arr F S50000x40 .f32 :=
  addf (Host.scatterAdd scatter_S50000x40_S850000x1_S850000x40_1_0_0_1 (broadcastInDim S50000x40 ![] bcast_S_S50000x40 (constant S_ .f32 0x00000000#32)) (broadcastInDim S850000x1 ![0] bcast_S850000_S850000x1_0 d) (mulf (Host.gather gather_S50000x40_S850000x1_S850000x40_1_0_n_n_0_1_140 lin (broadcastInDim S850000x1 ![0] bcast_S850000_S850000x1_0 (wrap s))) (broadcastInDim S850000x40 ![0, 1] bcast_S850000x1_S850000x40_0_1 (broadcastInDim S850000x1 ![0] bcast_S850000_S850000x1_0 n)))) (broadcastInDim S50000x40 ![0, 1] bcast_S1x40_S50000x40_0_1 (broadcastInDim S1x40 ![1] bcast_S40_S1x40_1 b))

/-- The maximum with zero, entry by entry. -/
def relu64 (h : Arr F S50000x64 .f32) : Arr F S50000x64 .f32 :=
  maximumf h (broadcastInDim S50000x64 ![] bcast_S_S50000x64 (constant S_ .f32 0x00000000#32))

/-- The three layers: aggregate the first linear layer's rows, rectify; the same again; aggregate the third. -/
def net (L₁ : Arr F S50000x128 .f32 → Arr F S50000x64 .f32) (L₂ : Arr F S50000x64 .f32 → Arr F S50000x64 .f32)
    (L₃ : Arr F S50000x64 .f32 → Arr F S50000x40 .f32) (x : Arr F S50000x128 .f32) (ei : Arr F S2x800000 .i32)
    (b₁ b₂ : Arr F S64 .f32) (b₃ : Arr F S40 .f32) : Arr F S50000x40 .f32 :=
  agg40 (L₃ (relu64 (agg64 (L₂ (relu64 (agg64 (L₁ x) (srcOf ei) (dstOf ei) (normOf (srcOf ei) (dstOf ei)) b₁))) (srcOf ei) (dstOf ei) (normOf (srcOf ei) (dstOf ei)) b₂))) (srcOf ei) (dstOf ei) (normOf (srcOf ei) (dstOf ei)) b₃

/-! ## Padding to 51200 rows and cutting back -/

/-- A 50000 × 128 matrix written over the top rows of a 51200 × 128 matrix of zeros. -/
def pad128 (x : Arr F S50000x128 .f32) : Arr F S51200x128 .f32 :=
  Host.scatter scatter_S51200x128_S1_S50000x128_01_n_0_0 (fun _ b => b) (broadcastInDim S51200x128 ![] bcast_S_S51200x128 (constant S_ .f32 0x00000000#32)) (broadcastInDim S1 ![] bcast_S_S1 (constantI S_ 32 0#32)) x

/-- The same for 64 columns. -/
def pad64 (h : Arr F S50000x64 .f32) : Arr F S51200x64 .f32 :=
  Host.scatter scatter_S51200x64_S1_S50000x64_01_n_0_0 (fun _ b => b) (broadcastInDim S51200x64 ![] bcast_S_S51200x64 (constant S_ .f32 0x00000000#32)) (broadcastInDim S1 ![] bcast_S_S1 (constantI S_ 32 0#32)) h

/-- The first 50000 rows of a 51200 × 64 matrix. -/
def rows64 (a : Arr F S51200x64 .f32) : Arr F S50000x64 .f32 :=
  extractStridedSlice S50000x64 ![0, 0] a slices_S51200x64_S50000x64_0_0

/-- The first 50000 rows of a 51200 × 40 matrix. -/
def rows40 (a : Arr F S51200x40 .f32) : Arr F S50000x40 .f32 :=
  extractStridedSlice S50000x40 ![0, 0] a slices_S51200x40_S50000x40_0_0

end Cert.Gcn

end
-- ==== Proof.RefIsNet.lean ====
/-
  The reference program's result is the three-layer network with the plain matrix products as its linear layers.

  The reference's run ends with its result buffer at one composed term of the arguments; that term is, operation for
  operation, `Cert.Gcn.net` with each linear layer the host's contraction of the layer's input with its weight matrix.
  Stated over an arbitrary float family: nothing is computed, the two terms are the same composition.
-/
import proofs.«417703_j66640712565428_3_alg».proof.Proof.RefRun
import proofs.«417703_j66640712565428_3_alg».proof.Proof.Spec

set_option maxRecDepth 16384

noncomputable section

namespace Cert.Gcn.Ref

open Cert.Gcn Idealize.ShloMosaic Idealize.ShloMosaic.TcCoe Idealize.SL.Sem

variable {F : FTy → Type} [FloatOps F]

/-- The reference's three linear layers: the host's contraction with the layer's weights. -/
def lin1 (w : Arr F Cert.KernelIdeal.S128x64 .f32) (x : Arr F Cert.KernelIdeal.S50000x128 .f32) : Arr F Cert.KernelIdeal.S50000x64 .f32 :=
  Host.dotGeneral Cert.ReferenceIdeal.dot_S50000x128_S128x64_S50000x64_1_0_0_1_n_n none x w
def lin2 (w : Arr F Cert.KernelIdeal.S64x64 .f32) (h : Arr F Cert.KernelIdeal.S50000x64 .f32) : Arr F Cert.KernelIdeal.S50000x64 .f32 :=
  Host.dotGeneral Cert.ReferenceIdeal.dot_S50000x64_S64x64_S50000x64_1_0_0_1_n_n none h w
def lin3 (w : Arr F Cert.KernelIdeal.S64x40 .f32) (h : Arr F Cert.KernelIdeal.S50000x64 .f32) : Arr F Cert.KernelIdeal.S50000x40 .f32 :=
  Host.dotGeneral Cert.ReferenceIdeal.dot_S50000x64_S64x40_S50000x40_1_0_0_1_n_n none h w

open Cert.ReferenceIdeal in
/-- The reference's result term is the network over its own linear layers. -/
theorem res_eq (m : (ℓ : Loc nD τ sig) → Buf (Elt F) ℓ) (c : Dev nD) :
    Cert.ReferenceIdeal.Value.res_main_v84 m c
      = net (lin1 (m ((c.tc : Thread nD τ).loc main_arg2))) (lin2 (m ((c.tc : Thread nD τ).loc main_arg4)))
          (lin3 (m ((c.tc : Thread nD τ).loc main_arg6))) (m ((c.tc : Thread nD τ).loc main_arg0))
          (m ((c.tc : Thread nD τ).loc main_arg1)) (m ((c.tc : Thread nD τ).loc main_arg3))
          (m ((c.tc : Thread nD τ).loc main_arg5)) (m ((c.tc : Thread nD τ).loc main_arg7)) := by
  unfold Cert.ReferenceIdeal.Value.res_main_v84 net lin1 lin2 lin3 agg40 agg64 relu64 normOf dinvOf degOf wrap srcOf dstOf
  rfl

end Cert.Gcn.Ref

end
-- ==== Proof.HostStages.lean ====
/-
  The host operations of the padded program, stretch by stretch, as the functions of `Cert.Gcn`.

  The program's host side falls into four stretches, cut at its three kernel launches. Each is read here from ANY buffer
  contents `V` at its start: what it leaves in the buffers a later launch or stretch reads, as a function of the buffers it
  reads itself, and that it leaves alone every buffer of an earlier stretch that a later one still reads (the edge
  sources, targets and weights, and the arguments).
-/
import proofs.«417703_j66640712565428_3_alg».proof.Proof.Spec
import proofs.«417703_j66640712565428_3_alg».proof.Proof.Gen.KernelIdeal.Launch
import Idealize.ShloMosaic.Lib.StableHlo.Run

set_option maxRecDepth 16384

noncomputable section

namespace Cert.Gcn.Host

open Cert.KernelIdeal Cert.KernelIdeal.Gen Cert.KernelIdeal.Facts₀ Cert.KernelIdeal.Facts
open Idealize.ShloMosaic Idealize.ShloMosaic.TcCoe Idealize.ShloMosaic.StableHlo

variable {F : FTy → Type} [FloatOps F] (V : Valuation τ sig (Elt F))

/-! ## Before the first launch: the edge lists, the edge weights, the padded input -/

theorem g0_src : after hostOps0_2 (after hostOps0_1 (after hostOps0 V)) (Proc.devRef .tc main_v3) = srcOf (V (Proc.devRef .tc main_arg1)) := by
  simp only [hostOps0, hostOps0_1, hostOps0_2]
  after_results_simp <;> rfl

theorem g0_dst : after hostOps0_2 (after hostOps0_1 (after hostOps0 V)) (Proc.devRef .tc main_v6) = dstOf (V (Proc.devRef .tc main_arg1)) := by
  simp only [hostOps0, hostOps0_1, hostOps0_2]
  after_results_simp <;> rfl

theorem g0_norm : after hostOps0_2 (after hostOps0_1 (after hostOps0 V)) (Proc.devRef .tc main_v31) = normOf (srcOf (V (Proc.devRef .tc main_arg1))) (dstOf (V (Proc.devRef .tc main_arg1))) := by
  simp only [hostOps0, hostOps0_1, hostOps0_2]
  after_results_simp <;> rfl

theorem g0_pad : after hostOps0_2 (after hostOps0_1 (after hostOps0 V)) (Proc.devRef .tc main_v34) = pad128 (V (Proc.devRef .tc main_arg0)) := by
  simp only [hostOps0, hostOps0_1, hostOps0_2]
  after_results_simp <;> rfl

theorem g0_arg2 : after hostOps0_2 (after hostOps0_1 (after hostOps0 V)) (Proc.devRef .tc main_arg2) = V (Proc.devRef .tc main_arg2) := by
  simp only [hostOps0, hostOps0_1, hostOps0_2]
  after_results_simp <;> rfl
theorem g0_arg3 : after hostOps0_2 (after hostOps0_1 (after hostOps0 V)) (Proc.devRef .tc main_arg3) = V (Proc.devRef .tc main_arg3) := by
  simp only [hostOps0, hostOps0_1, hostOps0_2]
  after_results_simp <;> rfl
theorem g0_arg4 : after hostOps0_2 (after hostOps0_1 (after hostOps0 V)) (Proc.devRef .tc main_arg4) = V (Proc.devRef .tc main_arg4) := by
  simp only [hostOps0, hostOps0_1, hostOps0_2]
  after_results_simp <;> rfl
theorem g0_arg5 : after hostOps0_2 (after hostOps0_1 (after hostOps0 V)) (Proc.devRef .tc main_arg5) = V (Proc.devRef .tc main_arg5) := by
  simp only [hostOps0, hostOps0_1, hostOps0_2]
  after_results_simp <;> rfl
theorem g0_arg6 : after hostOps0_2 (after hostOps0_1 (after hostOps0 V)) (Proc.devRef .tc main_arg6) = V (Proc.devRef .tc main_arg6) := by
  simp only [hostOps0, hostOps0_1, hostOps0_2]
  after_results_simp <;> rfl
theorem g0_arg7 : after hostOps0_2 (after hostOps0_1 (after hostOps0 V)) (Proc.devRef .tc main_arg7) = V (Proc.devRef .tc main_arg7) := by
  simp only [hostOps0, hostOps0_1, hostOps0_2]
  after_results_simp <;> rfl

/-! ## Between the first and the second launch: aggregate, rectify, pad -/

theorem g1_pad : after hostOps1_2 (after hostOps1_1 (after hostOps1 V)) (Proc.devRef .tc main_v56)
    = pad64 (relu64 (agg64 (rows64 (V (Proc.devRef .tc main_v35))) (V (Proc.devRef .tc main_v3)) (V (Proc.devRef .tc main_v6)) (V (Proc.devRef .tc main_v31)) (V (Proc.devRef .tc main_arg3)))) := by
  simp only [hostOps1, hostOps1_1, hostOps1_2]
  after_results_simp <;> rfl

theorem g1_v3 : after hostOps1_2 (after hostOps1_1 (after hostOps1 V)) (Proc.devRef .tc main_v3) = V (Proc.devRef .tc main_v3) := by
  simp only [hostOps1, hostOps1_1, hostOps1_2]
  after_results_simp <;> rfl
theorem g1_v6 : after hostOps1_2 (after hostOps1_1 (after hostOps1 V)) (Proc.devRef .tc main_v6) = V (Proc.devRef .tc main_v6) := by
  simp only [hostOps1, hostOps1_1, hostOps1_2]
  after_results_simp <;> rfl
theorem g1_v31 : after hostOps1_2 (after hostOps1_1 (after hostOps1 V)) (Proc.devRef .tc main_v31) = V (Proc.devRef .tc main_v31) := by
  simp only [hostOps1, hostOps1_1, hostOps1_2]
  after_results_simp <;> rfl
theorem g1_arg4 : after hostOps1_2 (after hostOps1_1 (after hostOps1 V)) (Proc.devRef .tc main_arg4) = V (Proc.devRef .tc main_arg4) := by
  simp only [hostOps1, hostOps1_1, hostOps1_2]
  after_results_simp <;> rfl
theorem g1_arg5 : after hostOps1_2 (after hostOps1_1 (after hostOps1 V)) (Proc.devRef .tc main_arg5) = V (Proc.devRef .tc main_arg5) := by
  simp only [hostOps1, hostOps1_1, hostOps1_2]
  after_results_simp <;> rfl
theorem g1_arg6 : after hostOps1_2 (after hostOps1_1 (after hostOps1 V)) (Proc.devRef .tc main_arg6) = V (Proc.devRef .tc main_arg6) := by
  simp only [hostOps1, hostOps1_1, hostOps1_2]
  after_results_simp <;> rfl
theorem g1_arg7 : after hostOps1_2 (after hostOps1_1 (after hostOps1 V)) (Proc.devRef .tc main_arg7) = V (Proc.devRef .tc main_arg7) := by
  simp only [hostOps1, hostOps1_1, hostOps1_2]
  after_results_simp <;> rfl

/-! ## Between the second and the third launch: the same again -/

theorem g2_pad : after hostOps2_2 (after hostOps2_1 (after hostOps2 V)) (Proc.devRef .tc main_v78)
    = pad64 (relu64 (agg64 (rows64 (V (Proc.devRef .tc main_v57))) (V (Proc.devRef .tc main_v3)) (V (Proc.devRef .tc main_v6)) (V (Proc.devRef .tc main_v31)) (V (Proc.devRef .tc main_arg5)))) := by
  simp only [hostOps2, hostOps2_1, hostOps2_2]
  after_results_simp <;> rfl

theorem g2_v3 : after hostOps2_2 (after hostOps2_1 (after hostOps2 V)) (Proc.devRef .tc main_v3) = V (Proc.devRef .tc main_v3) := by
  simp only [hostOps2, hostOps2_1, hostOps2_2]
  after_results_simp <;> rfl
theorem g2_v6 : after hostOps2_2 (after hostOps2_1 (after hostOps2 V)) (Proc.devRef .tc main_v6) = V (Proc.devRef .tc main_v6) := by
  simp only [hostOps2, hostOps2_1, hostOps2_2]
  after_results_simp <;> rfl
theorem g2_v31 : after hostOps2_2 (after hostOps2_1 (after hostOps2 V)) (Proc.devRef .tc main_v31) = V (Proc.devRef .tc main_v31) := by
  simp only [hostOps2, hostOps2_1, hostOps2_2]
  after_results_simp <;> rfl
theorem g2_arg6 : after hostOps2_2 (after hostOps2_1 (after hostOps2 V)) (Proc.devRef .tc main_arg6) = V (Proc.devRef .tc main_arg6) := by
  simp only [hostOps2, hostOps2_1, hostOps2_2]
  after_results_simp <;> rfl
theorem g2_arg7 : after hostOps2_2 (after hostOps2_1 (after hostOps2 V)) (Proc.devRef .tc main_arg7) = V (Proc.devRef .tc main_arg7) := by
  simp only [hostOps2, hostOps2_1, hostOps2_2]
  after_results_simp <;> rfl

/-! ## After the third launch: the last aggregation, no rectifier -/

theorem g3_out : after hostOps3 V (Proc.devRef .tc main_v96)
    = agg40 (rows40 (V (Proc.devRef .tc main_v79))) (V (Proc.devRef .tc main_v3)) (V (Proc.devRef .tc main_v6)) (V (Proc.devRef .tc main_v31)) (V (Proc.devRef .tc main_arg7)) := by
  simp only [hostOps3]
  after_results_simp <;> rfl

end Cert.Gcn.Host

end
-- ==== Proof.LibPlainMatmul.lean ====
/-
  A plain matrix product read at one element.

  `[a, k] × [k, b] → [a, b]` with the left operand's second axis contracted against the right operand's first, no batch
  axis: the product into a zero accumulator reads, at `(p, q)`, the sum over `j < k` of `lhs (p, j) · rhs (j, q)`.
  The contraction index of the dimension numbers is a one-coordinate index; the sum is re-indexed through its one
  coordinate, and each operand index is identified axis by axis (the free axis from the result index, the contracted
  axis from the contraction index).
-/
import Idealize.ShloMosaic.PureOps.Ideal.Laws
import Idealize.ShloMosaic.Lib.ValueIdx
import Mathlib.Algebra.BigOperators.Fin

namespace Cert.Lib.PlainMatmul

open Idealize.ShloMosaic Idealize.ShloMosaic.ValueIdx
open scoped BigOperators

/-- The dimension numbers of a plain product: contract the left's axis 1 with the right's axis 0. -/
abbrev plainDims (a k b : ℕ) (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

section
variable {a k b : ℕ} (wf : DotDims.WF ⟨2, ![a, k]⟩ ⟨2, ![k, b]⟩ ⟨2, ![a, b]⟩ [1] [0] [0] [1] [] [])

/-- The left operand's row is the result's row. -/
theorem lhs_row (j : (⟨2, ![a, b]⟩ : Shape).Idx) (q : (plainDims a k b wf).contr.Idx) :
    ((plainDims a k b wf).lhsIdx j q 0).val = (j 0).val := by
  unfold DotDims.lhsIdx
  rw [dif_neg (show ¬(0 : Fin 2) ∈ (plainDims a k b wf).lhsBatch from List.not_mem_nil),
    dif_pos (show (0 : Fin 2) ∈ (plainDims a k b wf).lhsNonContracting from List.mem_singleton.mpr rfl)]
  rfl

/-- The left operand's column is the contraction coordinate. -/
theorem lhs_col (j : (⟨2, ![a, b]⟩ : Shape).Idx) (q : (plainDims a k b wf).contr.Idx) :
    ((plainDims a k b wf).lhsIdx j q 1).val = (q ⟨0, Nat.one_pos⟩).val :=
  (plainDims a k b wf).lhsIdx_val_of_single rfl j q

/-- The right operand's row is the contraction coordinate. -/
theorem rhs_row (j : (⟨2, ![a, b]⟩ : Shape).Idx) (q : (plainDims a k b wf).contr.Idx) :
    ((plainDims a k b wf).rhsIdx j q 0).val = (q ⟨0, Nat.one_pos⟩).val :=
  (plainDims a k b wf).rhsIdx_val_of_single rfl j q

/-- The right operand's column is the result's column. -/
theorem rhs_col (j : (⟨2, ![a, b]⟩ : Shape).Idx) (q : (plainDims a k b wf).contr.Idx) :
    ((plainDims a k b wf).rhsIdx j q 1).val = (j 1).val := by
  unfold DotDims.rhsIdx
  rw [dif_neg (show ¬(1 : Fin 2) ∈ (plainDims a k b wf).rhsBatch from List.not_mem_nil),
    dif_pos (show (1 : Fin 2) ∈ (plainDims a k b wf).rhsNonContracting from List.mem_singleton.mpr rfl)]
  rfl

/-- The contraction sum of a plain product at `(p, q)`, as a sum over `j < k`. -/
theorem contr_sum_plainDims (lhs : (⟨2, ![a, k]⟩ : Shape).Idx → EReal) (rhs : (⟨2, ![k, b]⟩ : Shape).Idx → EReal)
    (p : Fin a) (q : Fin b) :
    (∑ c : (plainDims a k b wf).contr.Idx,
        lhs ((plainDims a k b wf).lhsIdx (ix2 p q) c) * rhs ((plainDims a k b wf).rhsIdx (ix2 p q) c))
      = ∑ j : Fin k, lhs (ix2 p j) * rhs (ix2 j q) := by
  rw [← Equiv.sum_comp (contrEquiv1 (plainDims a k b wf) k rfl rfl).symm]
  refine Finset.sum_congr rfl fun j _ => ?_
  have hk := contrEquiv1_symm_val (plainDims a k b wf) k rfl rfl j
  have el : (plainDims a k b wf).lhsIdx (ix2 p q) ((contrEquiv1 (plainDims a k b wf) k rfl rfl).symm j) = ix2 p j :=
    funext fun ax => Fin.ext (by
      match ax with
      | ⟨0, _⟩ => exact lhs_row wf _ _
      | ⟨1, _⟩ => exact (lhs_col wf _ _).trans hk)
  have er : (plainDims a k b wf).rhsIdx (ix2 p q) ((contrEquiv1 (plainDims a k b wf) k rfl rfl).symm j) = ix2 j q :=
    funext fun ax => Fin.ext (by
      match ax with
      | ⟨0, _⟩ => exact (rhs_row wf _ _).trans hk
      | ⟨1, _⟩ => exact rhs_col wf _ _)
  rw [el, er]

end

/-- THE PRODUCT INTO A ZERO ACCUMULATOR AT `(p, q)`, for any record with the plain dimension numbers: the sum over
    `j < k` of `lhs (p, j) · rhs (j, q)`. -/
theorem matmul_zero_apply {a k b : ℕ} {φ₁ φ₂ : FTy} (d : DotDims ⟨2, ![a, k]⟩ ⟨2, ![k, b]⟩ ⟨2, ![a, b]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  obtain ⟨lc, rc, ln, rn, lb, rb, wf⟩ := d
  simp only at h1 h2 h3 h4 h5 h6
  subst h1 h2 h3 h4 h5 h6
  rw [Ideal.matmul_constant_zero_apply]
  exact contr_sum_plainDims wf lhs rhs p q

/-- The host's contraction at the same dimension numbers, at `(p, q)`: the same sum. -/
theorem dotGeneral_apply {a k b : ℕ} {φ₁ φ₂ : FTy} (d : DotDims ⟨2, ![a, k]⟩ ⟨2, ![k, b]⟩ ⟨2, ![a, b]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![a, k]⟩ φ₁)
    (rhs : FVec Ideal ⟨2, ![k, b]⟩ φ₂) (p : Fin a) (q : Fin b) :
    FloatOps.dotGeneral d prec sched lhs rhs (ix2 p q) = ∑ j : Fin k, lhs (ix2 p j) * rhs (ix2 j q) := by
  obtain ⟨lc, rc, ln, rn, lb, rb, wf⟩ := d
  simp only at h1 h2 h3 h4 h5 h6
  subst h1 h2 h3 h4 h5 h6
  rw [Ideal.dotGeneral_apply]
  exact contr_sum_plainDims wf lhs rhs p q

end Cert.Lib.PlainMatmul
-- ==== Proof.Region0.lean ====
/-
  The first linear layer's kernel, as one matrix product.

  The kernel runs over 25 grid points. At point t it reads rows 2048·t … 2048·t + 2047 of a 51200 × 128 matrix A and the
  whole 128 × 64 matrix W, and writes their product to the same rows of a 51200 × 64 output. The float conversions
  between are the identity on the extended reals, and a product into a zero accumulator is the plain sum of products.
  So after the last point the output array holds, at (r, q), the sum over k < 128 of A(r, k) · W(k, q): every row r lies
  in the block of exactly the point r / 2048, and the blocks cover the array.
-/
import proofs.«417703_j66640712565428_3_alg».proof.Proof.Gen.KernelIdeal.Frame
import proofs.«417703_j66640712565428_3_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.Gcn.Region0

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The product of a 51200 × 128 matrix with a 128 × 64 matrix, entry by entry. -/
def MM (a : S51200x128.Idx → EReal) (w : S128x64.Idx → EReal) : S51200x64.Idx → EReal :=
  fun i => ∑ k : Fin 128, a (ix2 (i 0) k) * w (ix2 k (i 1))

theorem hz : (![0, 0] : Fin 2 → Nat) = fun _ => 0 := funext fun a => by fin_cases a <;> rfl

/-- The body's one stored value at (p, q): the sum over k of the row block's (p, k) times the weight's (k, q). -/
theorem pay_at (x0 : Vec Ideal S2048x128 .f32) (x1 : Vec Ideal S128x64 .f32) (j : S2048x64.Idx) :
    k0_pay1 x0 x1 j = ∑ k : Fin 128, x0 (ix2 (j 0) k) * x1 (ix2 k (j 1)) := by
  obtain ⟨p, q, rfl⟩ : ∃ (p : Fin 2048) (q : Fin 64), j = ix2 p q := ⟨j 0, j 1, eq_ix2 j⟩
  unfold k0_pay1
  refine (Cert.Lib.PlainMatmul.matmul_zero_apply dot_S2048x128_S128x64_S2048x64_1_0_0_1_n_n rfl rfl rfl rfl rfl rfl none _ _ p q).trans ?_
  refine Finset.sum_congr rfl fun k _ => ?_
  simp only [truncf, Ideal.truncf_def, shapeCast_self]

/-- The printed index maps over the 25 points: the row windows sit at block row t, the weight window at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block row is some point's. -/
theorem idx_onto : ∀ q0 : Fin 25, ∃ t : Fin cfg0.N, win0_2.index t = ![q0.val, 0] :=
  (by decide +kernel : ∀ q0 : Fin 25, ∃ t : Fin grid0.N, win0_2.index t = ![q0.val, 0])

/-- The row window's block at point t, at y, is the array at row 2048·t + y₀, column y₁. -/
theorem iblk_rows (c : Dev nD) (t : Fin cfg0.N) (y : S2048x128.Idx) (i : S51200x128.Idx)
    (h0 : (i 0).val = t.val * 2048 + (y 0).val) (h1 : (i 1).val = (y 1).val) :
    (iblk0 V c 0 t : Vec Ideal S2048x128 .f32) y = (V c main_v34 : S51200x128.Idx → EReal) i := by
  obtain ⟨e0, e1, -, -, -, -⟩ := idx_facts t
  show (V c main_v34 : S51200x128.Idx → EReal) (((cfg0.win 0).blk t).view.emb y) = _
  refine congrArg _ (funext fun a => Fin.ext ?_)
  match a with
  | ⟨0, _⟩ => show win0_0.index t (0 : Fin 2) * 2048 + 1 * (y 0).val = (i 0).val; omega
  | ⟨1, _⟩ => show win0_0.index t (1 : Fin 2) * 128 + 1 * (y 1).val = (i 1).val; omega

/-- The weight window's block at every point is the whole weight matrix. -/
theorem iblk_weights (c : Dev nD) (t : Fin cfg0.N) (y : S128x64.Idx) :
    (iblk0 V c 1 t : Vec Ideal S128x64 .f32) y = (V c main_arg2 : S128x64.Idx → EReal) y := by
  obtain ⟨-, -, e2, e3, -, -⟩ := idx_facts t
  show (V c main_arg2 : S128x64.Idx → EReal) (((cfg0.win 1).blk t).view.emb y) = _
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 64 + 1 * (y 1).val = (y 1).val; omega

/-- What point t writes back is block t of the product of the arrays the region finds. -/
theorem flushed_eq (c : Dev nD) (t : Fin cfg0.N) :
    (dat0 V c).flushed 2 t = ((cfg0.win 2).blk t).view.read (Elt Ideal) (MM (V c main_v34) (V c main_arg2)) := by
  show (cfg0.win 2).cut (grid0.coords t) ((dat0 V c).after 2 t) = _
  rw [after0_2]
  unfold out0_2
  rw [View.canon_unit_zero hz]
  simp only [View.ld_unit_zero (S := S2048x128) hz, View.ld_unit_zero (S := S128x64) hz]
  obtain ⟨-, -, -, -, e4, e5⟩ := idx_facts t
  funext j
  show k0_pay1 (iblk0 V c 0 t) (iblk0 V c 1 t) j = MM (V c main_v34) (V c main_arg2) (((cfg0.win 2).blk t).view.emb j)
  refine (pay_at (iblk0 V c 0 t) (iblk0 V c 1 t) j).trans ?_
  unfold MM
  refine Finset.sum_congr rfl fun k _ => ?_
  have hr : ((((cfg0.win 2).blk t).view.emb j) 0).val = t.val * 2048 + (j 0).val := by
    show win0_2.index t (0 : Fin 2) * 2048 + 1 * (j 0).val = _; omega
  have hq : ((((cfg0.win 2).blk t).view.emb j) 1).val = (j 1).val := by
    show win0_2.index t (1 : Fin 2) * 64 + 1 * (j 1).val = _; omega
  rw [iblk_rows V c t (ix2 (j 0) k) (ix2 ((((cfg0.win 2).blk t).view.emb j) 0) k) hr rfl, iblk_weights V c t (ix2 k (j 1))]
  refine congrArg _ (congrArg _ (funext fun a => Fin.ext ?_))
  match a with
  | ⟨0, _⟩ => rfl
  | ⟨1, _⟩ => exact hq.symm

/-- An index of the output array is in point t's block iff each coordinate is in the block's range on its axis. -/
theorem mem_blk (t : Fin cfg0.N) (i : S51200x64.Idx) :
    i ∈ ((cfg0.win 2).blk t).view.set ↔ ∀ a : Fin 2, win0_2.index t a * S2048x64.size a ≤ (i a).val ∧ (i a).val < win0_2.index t a * S2048x64.size a + S2048x64.size a := by
  show i ∈ ((View.whole main_v35).slice (win0_2.rect t)).set ↔ _
  rw [View.set_slice_whole, Rect.mem_set_unit]
  exact Iff.rfl

/-- Every index of the output array is in the block of the point its row block names. -/
theorem cover (i : S51200x64.Idx) : ∃ t : Fin cfg0.N, (cfg0.win 2).flush t = true ∧ i ∈ ((cfg0.win 2).blk t).view.set := by
  have hi0 : (i 0).val < 51200 := (i 0).isLt
  have hi1 : (i 1).val < 64 := (i 1).isLt
  obtain ⟨t, ht⟩ := idx_onto ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 64 ≤ (i 1).val ∧ (i 1).val < win0_2.index t (1 : Fin 2) * 64 + 64; omega

/-- After the last point the output array is the product of the two arrays the region found. -/
theorem final (c : Dev nD) : (dat0 V c).arrAt 2 cfg0.N = MM (V c main_v34) (V c main_arg2) :=
  (dat0 V c).arrAt_eq_of_cover 2 (MM (V c main_v34) (V c main_arg2)) (fun t _ => flushed_eq V c t) cover

end Cert.Gcn.Region0

end
-- ==== Proof.Region1.lean ====
/- The same statement for launch 1: after its last point the output array is the product of the two arrays the launch found. -/
import proofs.«417703_j66640712565428_3_alg».proof.Proof.Gen.KernelIdeal.Frame
import proofs.«417703_j66640712565428_3_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.Gcn.Region1

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The product of a 51200 × 64 matrix with a 64 × 64 matrix, entry by entry. -/
def MM (a : S51200x64.Idx → EReal) (w : S64x64.Idx → EReal) : S51200x64.Idx → EReal :=
  fun i => ∑ k : Fin 64, a (ix2 (i 0) k) * w (ix2 k (i 1))

theorem hz : (![0, 0] : Fin 2 → Nat) = fun _ => 0 := funext fun a => by fin_cases a <;> rfl

/-- The body's one stored value at (p, q): the sum over k of the row block's (p, k) times the weight's (k, q). -/
theorem pay_at (x0 : Vec Ideal S2048x64 .f32) (x1 : Vec Ideal S64x64 .f32) (j : S2048x64.Idx) :
    k1_pay1 x0 x1 j = ∑ k : Fin 64, x0 (ix2 (j 0) k) * x1 (ix2 k (j 1)) := by
  obtain ⟨p, q, rfl⟩ : ∃ (p : Fin 2048) (q : Fin 64), j = ix2 p q := ⟨j 0, j 1, eq_ix2 j⟩
  unfold k1_pay1
  refine (Cert.Lib.PlainMatmul.matmul_zero_apply dot_S2048x64_S64x64_S2048x64_1_0_0_1_n_n rfl rfl rfl rfl rfl rfl none _ _ p q).trans ?_
  refine Finset.sum_congr rfl fun k _ => ?_
  simp only [truncf, Ideal.truncf_def, shapeCast_self]

/-- The printed index maps over the 25 points: the row windows sit at block row t, the weight window at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every block row is some point's. -/
theorem idx_onto : ∀ q0 : Fin 25, ∃ t : Fin cfg1.N, win1_2.index t = ![q0.val, 0] :=
  (by decide +kernel : ∀ q0 : Fin 25, ∃ t : Fin grid1.N, win1_2.index t = ![q0.val, 0])

/-- The row window's block at point t, at y, is the array at row 2048·t + y₀, column y₁. -/
theorem iblk_rows (c : Dev nD) (t : Fin cfg1.N) (y : S2048x64.Idx) (i : S51200x64.Idx)
    (h0 : (i 0).val = t.val * 2048 + (y 0).val) (h1 : (i 1).val = (y 1).val) :
    (iblk1 V c 0 t : Vec Ideal S2048x64 .f32) y = (V c main_v56 : S51200x64.Idx → EReal) i := by
  obtain ⟨e0, e1, -, -, -, -⟩ := idx_facts t
  show (V c main_v56 : S51200x64.Idx → EReal) (((cfg1.win 0).blk t).view.emb y) = _
  refine congrArg _ (funext fun a => Fin.ext ?_)
  match a with
  | ⟨0, _⟩ => show win1_0.index t (0 : Fin 2) * 2048 + 1 * (y 0).val = (i 0).val; omega
  | ⟨1, _⟩ => show win1_0.index t (1 : Fin 2) * 64 + 1 * (y 1).val = (i 1).val; omega

/-- The weight window's block at every point is the whole weight matrix. -/
theorem iblk_weights (c : Dev nD) (t : Fin cfg1.N) (y : S64x64.Idx) :
    (iblk1 V c 1 t : Vec Ideal S64x64 .f32) y = (V c main_arg4 : S64x64.Idx → EReal) y := by
  obtain ⟨-, -, e2, e3, -, -⟩ := idx_facts t
  show (V c main_arg4 : S64x64.Idx → EReal) (((cfg1.win 1).blk t).view.emb y) = _
  refine congrArg _ (funext fun a => Fin.ext ?_)
  match a with
  | ⟨0, _⟩ => show win1_1.index t (0 : Fin 2) * 64 + 1 * (y 0).val = (y 0).val; omega
  | ⟨1, _⟩ => show win1_1.index t (1 : Fin 2) * 64 + 1 * (y 1).val = (y 1).val; omega

/-- What point t writes back is block t of the product of the arrays the region finds. -/
theorem flushed_eq (c : Dev nD) (t : Fin cfg1.N) :
    (dat1 V c).flushed 2 t = ((cfg1.win 2).blk t).view.read (Elt Ideal) (MM (V c main_v56) (V c main_arg4)) := by
  show (cfg1.win 2).cut (grid1.coords t) ((dat1 V c).after 2 t) = _
  rw [after1_2]
  unfold out1_2
  rw [View.canon_unit_zero hz]
  simp only [View.ld_unit_zero (S := S2048x64) hz, View.ld_unit_zero (S := S64x64) hz]
  obtain ⟨-, -, -, -, e4, e5⟩ := idx_facts t
  funext j
  show k1_pay1 (iblk1 V c 0 t) (iblk1 V c 1 t) j = MM (V c main_v56) (V c main_arg4) (((cfg1.win 2).blk t).view.emb j)
  refine (pay_at (iblk1 V c 0 t) (iblk1 V c 1 t) j).trans ?_
  unfold MM
  refine Finset.sum_congr rfl fun k _ => ?_
  have hr : ((((cfg1.win 2).blk t).view.emb j) 0).val = t.val * 2048 + (j 0).val := by
    show win1_2.index t (0 : Fin 2) * 2048 + 1 * (j 0).val = _; omega
  have hq : ((((cfg1.win 2).blk t).view.emb j) 1).val = (j 1).val := by
    show win1_2.index t (1 : Fin 2) * 64 + 1 * (j 1).val = _; omega
  rw [iblk_rows V c t (ix2 (j 0) k) (ix2 ((((cfg1.win 2).blk t).view.emb j) 0) k) hr rfl, iblk_weights V c t (ix2 k (j 1))]
  refine congrArg _ (congrArg _ (funext fun a => Fin.ext ?_))
  match a with
  | ⟨0, _⟩ => rfl
  | ⟨1, _⟩ => exact hq.symm

/-- An index of the output array is in point t's block iff each coordinate is in the block's range on its axis. -/
theorem mem_blk (t : Fin cfg1.N) (i : S51200x64.Idx) :
    i ∈ ((cfg1.win 2).blk t).view.set ↔ ∀ a : Fin 2, win1_2.index t a * S2048x64.size a ≤ (i a).val ∧ (i a).val < win1_2.index t a * S2048x64.size a + S2048x64.size a := by
  show i ∈ ((View.whole main_v57).slice (win1_2.rect t)).set ↔ _
  rw [View.set_slice_whole, Rect.mem_set_unit]
  exact Iff.rfl

/-- Every index of the output array is in the block of the point its row block names. -/
theorem cover (i : S51200x64.Idx) : ∃ t : Fin cfg1.N, (cfg1.win 2).flush t = true ∧ i ∈ ((cfg1.win 2).blk t).view.set := by
  have hi0 : (i 0).val < 51200 := (i 0).isLt
  have hi1 : (i 1).val < 64 := (i 1).isLt
  obtain ⟨t, ht⟩ := idx_onto ⟨(i 0).val / 2048, by omega⟩
  have q0 : win1_2.index t (0 : Fin 2) = (i 0).val / 2048 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 2048 ≤ (i 0).val ∧ (i 0).val < win1_2.index t (0 : Fin 2) * 2048 + 2048; omega
  | ⟨1, _⟩ => show win1_2.index t (1 : Fin 2) * 64 ≤ (i 1).val ∧ (i 1).val < win1_2.index t (1 : Fin 2) * 64 + 64; omega

/-- After the last point the output array is the product of the two arrays the region found. -/
theorem final (c : Dev nD) : (dat1 V c).arrAt 2 cfg1.N = MM (V c main_v56) (V c main_arg4) :=
  (dat1 V c).arrAt_eq_of_cover 2 (MM (V c main_v56) (V c main_arg4)) (fun t _ => flushed_eq V c t) cover

end Cert.Gcn.Region1

end
-- ==== Proof.Region2.lean ====
/- The same statement for launch 2: after its last point the output array is the product of the two arrays the launch found. -/
import proofs.«417703_j66640712565428_3_alg».proof.Proof.Gen.KernelIdeal.Frame
import proofs.«417703_j66640712565428_3_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.Gcn.Region2

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The product of a 51200 × 64 matrix with a 64 × 40 matrix, entry by entry. -/
def MM (a : S51200x64.Idx → EReal) (w : S64x40.Idx → EReal) : S51200x40.Idx → EReal :=
  fun i => ∑ k : Fin 64, a (ix2 (i 0) k) * w (ix2 k (i 1))

theorem hz : (![0, 0] : Fin 2 → Nat) = fun _ => 0 := funext fun a => by fin_cases a <;> rfl

/-- The body's one stored value at (p, q): the sum over k of the row block's (p, k) times the weight's (k, q). -/
theorem pay_at (x0 : Vec Ideal S2048x64 .f32) (x1 : Vec Ideal S64x40 .f32) (j : S2048x40.Idx) :
    k2_pay1 x0 x1 j = ∑ k : Fin 64, x0 (ix2 (j 0) k) * x1 (ix2 k (j 1)) := by
  obtain ⟨p, q, rfl⟩ : ∃ (p : Fin 2048) (q : Fin 40), j = ix2 p q := ⟨j 0, j 1, eq_ix2 j⟩
  unfold k2_pay1
  refine (Cert.Lib.PlainMatmul.matmul_zero_apply dot_S2048x64_S64x40_S2048x40_1_0_0_1_n_n rfl rfl rfl rfl rfl rfl none _ _ p q).trans ?_
  refine Finset.sum_congr rfl fun k _ => ?_
  simp only [truncf, Ideal.truncf_def, shapeCast_self]

/-- The printed index maps over the 25 points: the row windows sit at block row t, the weight window at the origin. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every block row is some point's. -/
theorem idx_onto : ∀ q0 : Fin 25, ∃ t : Fin cfg2.N, win2_2.index t = ![q0.val, 0] :=
  (by decide +kernel : ∀ q0 : Fin 25, ∃ t : Fin grid2.N, win2_2.index t = ![q0.val, 0])

/-- The row window's block at point t, at y, is the array at row 2048·t + y₀, column y₁. -/
theorem iblk_rows (c : Dev nD) (t : Fin cfg2.N) (y : S2048x64.Idx) (i : S51200x64.Idx)
    (h0 : (i 0).val = t.val * 2048 + (y 0).val) (h1 : (i 1).val = (y 1).val) :
    (iblk2 V c 0 t : Vec Ideal S2048x64 .f32) y = (V c main_v78 : S51200x64.Idx → EReal) i := by
  obtain ⟨e0, e1, -, -, -, -⟩ := idx_facts t
  show (V c main_v78 : S51200x64.Idx → EReal) (((cfg2.win 0).blk t).view.emb y) = _
  refine congrArg _ (funext fun a => Fin.ext ?_)
  match a with
  | ⟨0, _⟩ => show win2_0.index t (0 : Fin 2) * 2048 + 1 * (y 0).val = (i 0).val; omega
  | ⟨1, _⟩ => show win2_0.index t (1 : Fin 2) * 64 + 1 * (y 1).val = (i 1).val; omega

/-- The weight window's block at every point is the whole weight matrix. -/
theorem iblk_weights (c : Dev nD) (t : Fin cfg2.N) (y : S64x40.Idx) :
    (iblk2 V c 1 t : Vec Ideal S64x40 .f32) y = (V c main_arg6 : S64x40.Idx → EReal) y := by
  obtain ⟨-, -, e2, e3, -, -⟩ := idx_facts t
  show (V c main_arg6 : S64x40.Idx → EReal) (((cfg2.win 1).blk t).view.emb y) = _
  refine congrArg _ (funext fun a => Fin.ext ?_)
  match a with
  | ⟨0, _⟩ => show win2_1.index t (0 : Fin 2) * 64 + 1 * (y 0).val = (y 0).val; omega
  | ⟨1, _⟩ => show win2_1.index t (1 : Fin 2) * 40 + 1 * (y 1).val = (y 1).val; omega

/-- What point t writes back is block t of the product of the arrays the region finds. -/
theorem flushed_eq (c : Dev nD) (t : Fin cfg2.N) :
    (dat2 V c).flushed 2 t = ((cfg2.win 2).blk t).view.read (Elt Ideal) (MM (V c main_v78) (V c main_arg6)) := by
  show (cfg2.win 2).cut (grid2.coords t) ((dat2 V c).after 2 t) = _
  rw [after2_2]
  unfold out2_2
  rw [View.canon_unit_zero hz]
  simp only [View.ld_unit_zero (S := S2048x64) hz, View.ld_unit_zero (S := S64x40) hz]
  obtain ⟨-, -, -, -, e4, e5⟩ := idx_facts t
  funext j
  show k2_pay1 (iblk2 V c 0 t) (iblk2 V c 1 t) j = MM (V c main_v78) (V c main_arg6) (((cfg2.win 2).blk t).view.emb j)
  refine (pay_at (iblk2 V c 0 t) (iblk2 V c 1 t) j).trans ?_
  unfold MM
  refine Finset.sum_congr rfl fun k _ => ?_
  have hr : ((((cfg2.win 2).blk t).view.emb j) 0).val = t.val * 2048 + (j 0).val := by
    show win2_2.index t (0 : Fin 2) * 2048 + 1 * (j 0).val = _; omega
  have hq : ((((cfg2.win 2).blk t).view.emb j) 1).val = (j 1).val := by
    show win2_2.index t (1 : Fin 2) * 40 + 1 * (j 1).val = _; omega
  rw [iblk_rows V c t (ix2 (j 0) k) (ix2 ((((cfg2.win 2).blk t).view.emb j) 0) k) hr rfl, iblk_weights V c t (ix2 k (j 1))]
  refine congrArg _ (congrArg _ (funext fun a => Fin.ext ?_))
  match a with
  | ⟨0, _⟩ => rfl
  | ⟨1, _⟩ => exact hq.symm

/-- An index of the output array is in point t's block iff each coordinate is in the block's range on its axis. -/
theorem mem_blk (t : Fin cfg2.N) (i : S51200x40.Idx) :
    i ∈ ((cfg2.win 2).blk t).view.set ↔ ∀ a : Fin 2, win2_2.index t a * S2048x40.size a ≤ (i a).val ∧ (i a).val < win2_2.index t a * S2048x40.size a + S2048x40.size a := by
  show i ∈ ((View.whole main_v79).slice (win2_2.rect t)).set ↔ _
  rw [View.set_slice_whole, Rect.mem_set_unit]
  exact Iff.rfl

/-- Every index of the output array is in the block of the point its row block names. -/
theorem cover (i : S51200x40.Idx) : ∃ t : Fin cfg2.N, (cfg2.win 2).flush t = true ∧ i ∈ ((cfg2.win 2).blk t).view.set := by
  have hi0 : (i 0).val < 51200 := (i 0).isLt
  have hi1 : (i 1).val < 40 := (i 1).isLt
  obtain ⟨t, ht⟩ := idx_onto ⟨(i 0).val / 2048, by omega⟩
  have q0 : win2_2.index t (0 : Fin 2) = (i 0).val / 2048 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 2048 ≤ (i 0).val ∧ (i 0).val < win2_2.index t (0 : Fin 2) * 2048 + 2048; omega
  | ⟨1, _⟩ => show win2_2.index t (1 : Fin 2) * 40 ≤ (i 1).val ∧ (i 1).val < win2_2.index t (1 : Fin 2) * 40 + 40; omega

/-- After the last point the output array is the product of the two arrays the region found. -/
theorem final (c : Dev nD) : (dat2 V c).arrAt 2 cfg2.N = MM (V c main_v78) (V c main_arg6) :=
  (dat2 V c).arrAt_eq_of_cover 2 (MM (V c main_v78) (V c main_arg6)) (fun t _ => flushed_eq V c t) cover

end Cert.Gcn.Region2

end
-- ==== Proof.KernelValue.lean ====
/-
  The padded program's result buffer, read through its host stretches and its three launches.

  The buffer contents at each boundary of the program — before and after each launch — are followed from the launch
  memory: the edge sources, targets and weights and the arguments pass every later stretch and launch untouched; each
  launch leaves in its output array the product of the padded layer input with the layer's weights (its closed form);
  each stretch between launches cuts the product back to 50000 rows, aggregates, rectifies and pads again. At the end
  the result buffer holds the three-layer network whose linear layers are "pad, multiply in tiles, cut back".
-/
import proofs.«417703_j66640712565428_3_alg».proof.Proof.HostStages
import proofs.«417703_j66640712565428_3_alg».proof.Proof.Region0
import proofs.«417703_j66640712565428_3_alg».proof.Proof.Region1
import proofs.«417703_j66640712565428_3_alg».proof.Proof.Region2

set_option maxRecDepth 16384

noncomputable section

namespace Cert.Gcn.Kernel

open Cert.Gcn Cert.KernelIdeal Cert.KernelIdeal.Gen Cert.KernelIdeal.Facts₀ Cert.KernelIdeal.Facts
open Idealize.ShloMosaic Idealize.ShloMosaic.TcCoe Idealize.SL.Sem

/-- The padded program's three linear layers: pad to 51200 rows, multiply, keep the first 50000 rows. -/
def klin1 (w : Arr Ideal S128x64 .f32) (x : Arr Ideal S50000x128 .f32) : Arr Ideal S50000x64 .f32 := rows64 (Region0.MM (pad128 x) w)
def klin2 (w : Arr Ideal S64x64 .f32) (h : Arr Ideal S50000x64 .f32) : Arr Ideal S50000x64 .f32 := rows64 (Region1.MM (pad64 h) w)
def klin3 (w : Arr Ideal S64x40 .f32) (h : Arr Ideal S50000x64 .f32) : Arr Ideal S50000x40 .f32 := rows40 (Region2.MM (pad64 h) w)

variable (m : (ℓ : Loc nD τ sig) → Buf (Elt Ideal) ℓ) (ρ : Dev nD → PrngReg) (c : Dev nD)

/-- The first hidden layer. -/
def hid1 : Arr Ideal S50000x64 .f32 :=
  relu64 (agg64 (klin1 (m ((c : Thread nD τ).loc main_arg2)) (m ((c : Thread nD τ).loc main_arg0))) (srcOf (m ((c : Thread nD τ).loc main_arg1))) (dstOf (m ((c : Thread nD τ).loc main_arg1))) (normOf (srcOf (m ((c : Thread nD τ).loc main_arg1))) (dstOf (m ((c : Thread nD τ).loc main_arg1)))) (m ((c : Thread nD τ).loc main_arg3)))
/-- The second hidden layer. -/
def hid2 : Arr Ideal S50000x64 .f32 :=
  relu64 (agg64 (klin2 (m ((c : Thread nD τ).loc main_arg4)) (hid1 m c)) (srcOf (m ((c : Thread nD τ).loc main_arg1))) (dstOf (m ((c : Thread nD τ).loc main_arg1))) (normOf (srcOf (m ((c : Thread nD τ).loc main_arg1))) (dstOf (m ((c : Thread nD τ).loc main_arg1)))) (m ((c : Thread nD τ).loc main_arg5)))

/-! ## Before the first launch -/

theorem w3_src : W3 m ρ c (Proc.devRef .tc main_v3) = srcOf (m ((c : Thread nD τ).loc main_arg1)) := Host.g0_src (W0 m ρ c)
theorem w3_dst : W3 m ρ c (Proc.devRef .tc main_v6) = dstOf (m ((c : Thread nD τ).loc main_arg1)) := Host.g0_dst (W0 m ρ c)
theorem w3_norm : W3 m ρ c (Proc.devRef .tc main_v31) = normOf (srcOf (m ((c : Thread nD τ).loc main_arg1))) (dstOf (m ((c : Thread nD τ).loc main_arg1))) := Host.g0_norm (W0 m ρ c)
theorem w3_pad : W3 m ρ c (Proc.devRef .tc main_v34) = pad128 (m ((c : Thread nD τ).loc main_arg0)) := Host.g0_pad (W0 m ρ c)
theorem w3_arg2 : W3 m ρ c (Proc.devRef .tc main_arg2) = (m ((c : Thread nD τ).loc main_arg2)) := Host.g0_arg2 (W0 m ρ c)
theorem w3_arg3 : W3 m ρ c (Proc.devRef .tc main_arg3) = (m ((c : Thread nD τ).loc main_arg3)) := Host.g0_arg3 (W0 m ρ c)
theorem w3_arg4 : W3 m ρ c (Proc.devRef .tc main_arg4) = (m ((c : Thread nD τ).loc main_arg4)) := Host.g0_arg4 (W0 m ρ c)
theorem w3_arg5 : W3 m ρ c (Proc.devRef .tc main_arg5) = (m ((c : Thread nD τ).loc main_arg5)) := Host.g0_arg5 (W0 m ρ c)
theorem w3_arg6 : W3 m ρ c (Proc.devRef .tc main_arg6) = (m ((c : Thread nD τ).loc main_arg6)) := Host.g0_arg6 (W0 m ρ c)
theorem w3_arg7 : W3 m ρ c (Proc.devRef .tc main_arg7) = (m ((c : Thread nD τ).loc main_arg7)) := Host.g0_arg7 (W0 m ρ c)

/-! ## After the first launch -/

theorem w4_lin : W4 m ρ c (Proc.devRef .tc main_v35) = Region0.MM (pad128 (m ((c : Thread nD τ).loc main_arg0))) (m ((c : Thread nD τ).loc main_arg2)) :=
  (W4_arr m ρ c 2).trans ((Region0.final (V3 m ρ) c).trans (congrArg₂ Region0.MM (w3_pad m ρ c) (w3_arg2 m ρ c)))
theorem w4_src : W4 m ρ c (Proc.devRef .tc main_v3) = srcOf (m ((c : Thread nD τ).loc main_arg1)) := (W4_of_ne m ρ c main_v3 (by decide)).trans (w3_src m ρ c)
theorem w4_dst : W4 m ρ c (Proc.devRef .tc main_v6) = dstOf (m ((c : Thread nD τ).loc main_arg1)) := (W4_of_ne m ρ c main_v6 (by decide)).trans (w3_dst m ρ c)
theorem w4_norm : W4 m ρ c (Proc.devRef .tc main_v31) = normOf (srcOf (m ((c : Thread nD τ).loc main_arg1))) (dstOf (m ((c : Thread nD τ).loc main_arg1))) := (W4_of_ne m ρ c main_v31 (by decide)).trans (w3_norm m ρ c)
theorem w4_arg3 : W4 m ρ c (Proc.devRef .tc main_arg3) = (m ((c : Thread nD τ).loc main_arg3)) := (W4_of_ne m ρ c main_arg3 (by decide)).trans (w3_arg3 m ρ c)
theorem w4_arg4 : W4 m ρ c (Proc.devRef .tc main_arg4) = (m ((c : Thread nD τ).loc main_arg4)) := (W4_of_ne m ρ c main_arg4 (by decide)).trans (w3_arg4 m ρ c)
theorem w4_arg5 : W4 m ρ c (Proc.devRef .tc main_arg5) = (m ((c : Thread nD τ).loc main_arg5)) := (W4_of_ne m ρ c main_arg5 (by decide)).trans (w3_arg5 m ρ c)
theorem w4_arg6 : W4 m ρ c (Proc.devRef .tc main_arg6) = (m ((c : Thread nD τ).loc main_arg6)) := (W4_of_ne m ρ c main_arg6 (by decide)).trans (w3_arg6 m ρ c)
theorem w4_arg7 : W4 m ρ c (Proc.devRef .tc main_arg7) = (m ((c : Thread nD τ).loc main_arg7)) := (W4_of_ne m ρ c main_arg7 (by decide)).trans (w3_arg7 m ρ c)

/-! ## Before the second launch -/

theorem w7_pad : W7 m ρ c (Proc.devRef .tc main_v56) = pad64 (hid1 m c) := by
  refine (Host.g1_pad (W4 m ρ c)).trans ?_
  rw [w4_lin, w4_src, w4_dst, w4_norm, w4_arg3]
  rfl
theorem w7_src : W7 m ρ c (Proc.devRef .tc main_v3) = srcOf (m ((c : Thread nD τ).loc main_arg1)) := (Host.g1_v3 (W4 m ρ c)).trans (w4_src m ρ c)
theorem w7_dst : W7 m ρ c (Proc.devRef .tc main_v6) = dstOf (m ((c : Thread nD τ).loc main_arg1)) := (Host.g1_v6 (W4 m ρ c)).trans (w4_dst m ρ c)
theorem w7_norm : W7 m ρ c (Proc.devRef .tc main_v31) = normOf (srcOf (m ((c : Thread nD τ).loc main_arg1))) (dstOf (m ((c : Thread nD τ).loc main_arg1))) := (Host.g1_v31 (W4 m ρ c)).trans (w4_norm m ρ c)
theorem w7_arg4 : W7 m ρ c (Proc.devRef .tc main_arg4) = (m ((c : Thread nD τ).loc main_arg4)) := (Host.g1_arg4 (W4 m ρ c)).trans (w4_arg4 m ρ c)
theorem w7_arg5 : W7 m ρ c (Proc.devRef .tc main_arg5) = (m ((c : Thread nD τ).loc main_arg5)) := (Host.g1_arg5 (W4 m ρ c)).trans (w4_arg5 m ρ c)
theorem w7_arg6 : W7 m ρ c (Proc.devRef .tc main_arg6) = (m ((c : Thread nD τ).loc main_arg6)) := (Host.g1_arg6 (W4 m ρ c)).trans (w4_arg6 m ρ c)
theorem w7_arg7 : W7 m ρ c (Proc.devRef .tc main_arg7) = (m ((c : Thread nD τ).loc main_arg7)) := (Host.g1_arg7 (W4 m ρ c)).trans (w4_arg7 m ρ c)

/-! ## After the second launch -/

theorem w8_lin : W8 m ρ c (Proc.devRef .tc main_v57) = Region1.MM (pad64 (hid1 m c)) (m ((c : Thread nD τ).loc main_arg4)) :=
  (W8_arr m ρ c 2).trans ((Region1.final (V7 m ρ) c).trans (congrArg₂ Region1.MM (w7_pad m ρ c) (w7_arg4 m ρ c)))
theorem w8_src : W8 m ρ c (Proc.devRef .tc main_v3) = srcOf (m ((c : Thread nD τ).loc main_arg1)) := (W8_of_ne m ρ c main_v3 (by decide)).trans (w7_src m ρ c)
theorem w8_dst : W8 m ρ c (Proc.devRef .tc main_v6) = dstOf (m ((c : Thread nD τ).loc main_arg1)) := (W8_of_ne m ρ c main_v6 (by decide)).trans (w7_dst m ρ c)
theorem w8_norm : W8 m ρ c (Proc.devRef .tc main_v31) = normOf (srcOf (m ((c : Thread nD τ).loc main_arg1))) (dstOf (m ((c : Thread nD τ).loc main_arg1))) := (W8_of_ne m ρ c main_v31 (by decide)).trans (w7_norm m ρ c)
theorem w8_arg5 : W8 m ρ c (Proc.devRef .tc main_arg5) = (m ((c : Thread nD τ).loc main_arg5)) := (W8_of_ne m ρ c main_arg5 (by decide)).trans (w7_arg5 m ρ c)
theorem w8_arg6 : W8 m ρ c (Proc.devRef .tc main_arg6) = (m ((c : Thread nD τ).loc main_arg6)) := (W8_of_ne m ρ c main_arg6 (by decide)).trans (w7_arg6 m ρ c)
theorem w8_arg7 : W8 m ρ c (Proc.devRef .tc main_arg7) = (m ((c : Thread nD τ).loc main_arg7)) := (W8_of_ne m ρ c main_arg7 (by decide)).trans (w7_arg7 m ρ c)

/-! ## Before the third launch -/

theorem w11_pad : W11 m ρ c (Proc.devRef .tc main_v78) = pad64 (hid2 m c) := by
  refine (Host.g2_pad (W8 m ρ c)).trans ?_
  rw [w8_lin, w8_src, w8_dst, w8_norm, w8_arg5]
  rfl
theorem w11_src : W11 m ρ c (Proc.devRef .tc main_v3) = srcOf (m ((c : Thread nD τ).loc main_arg1)) := (Host.g2_v3 (W8 m ρ c)).trans (w8_src m ρ c)
theorem w11_dst : W11 m ρ c (Proc.devRef .tc main_v6) = dstOf (m ((c : Thread nD τ).loc main_arg1)) := (Host.g2_v6 (W8 m ρ c)).trans (w8_dst m ρ c)
theorem w11_norm : W11 m ρ c (Proc.devRef .tc main_v31) = normOf (srcOf (m ((c : Thread nD τ).loc main_arg1))) (dstOf (m ((c : Thread nD τ).loc main_arg1))) := (Host.g2_v31 (W8 m ρ c)).trans (w8_norm m ρ c)
theorem w11_arg6 : W11 m ρ c (Proc.devRef .tc main_arg6) = (m ((c : Thread nD τ).loc main_arg6)) := (Host.g2_arg6 (W8 m ρ c)).trans (w8_arg6 m ρ c)
theorem w11_arg7 : W11 m ρ c (Proc.devRef .tc main_arg7) = (m ((c : Thread nD τ).loc main_arg7)) := (Host.g2_arg7 (W8 m ρ c)).trans (w8_arg7 m ρ c)

/-! ## After the third launch -/

theorem w12_lin : W12 m ρ c (Proc.devRef .tc main_v79) = Region2.MM (pad64 (hid2 m c)) (m ((c : Thread nD τ).loc main_arg6)) :=
  (W12_arr m ρ c 2).trans ((Region2.final (V11 m ρ) c).trans (congrArg₂ Region2.MM (w11_pad m ρ c) (w11_arg6 m ρ c)))
theorem w12_src : W12 m ρ c (Proc.devRef .tc main_v3) = srcOf (m ((c : Thread nD τ).loc main_arg1)) := (W12_of_ne m ρ c main_v3 (by decide)).trans (w11_src m ρ c)
theorem w12_dst : W12 m ρ c (Proc.devRef .tc main_v6) = dstOf (m ((c : Thread nD τ).loc main_arg1)) := (W12_of_ne m ρ c main_v6 (by decide)).trans (w11_dst m ρ c)
theorem w12_norm : W12 m ρ c (Proc.devRef .tc main_v31) = normOf (srcOf (m ((c : Thread nD τ).loc main_arg1))) (dstOf (m ((c : Thread nD τ).loc main_arg1))) := (W12_of_ne m ρ c main_v31 (by decide)).trans (w11_norm m ρ c)
theorem w12_arg7 : W12 m ρ c (Proc.devRef .tc main_arg7) = (m ((c : Thread nD τ).loc main_arg7)) := (W12_of_ne m ρ c main_arg7 (by decide)).trans (w11_arg7 m ρ c)

/-! ## The result -/

/-- The result buffer at the last boundary: the network over the padded program's own linear layers. -/
theorem out_eq : W13 m ρ c (Proc.devRef .tc main_v96)
    = net (klin1 (m ((c : Thread nD τ).loc main_arg2))) (klin2 (m ((c : Thread nD τ).loc main_arg4))) (klin3 (m ((c : Thread nD τ).loc main_arg6))) (m ((c : Thread nD τ).loc main_arg0)) (m ((c : Thread nD τ).loc main_arg1))
        (m ((c : Thread nD τ).loc main_arg3)) (m ((c : Thread nD τ).loc main_arg5)) (m ((c : Thread nD τ).loc main_arg7)) := by
  refine (Host.g3_out (W12 m ρ c)).trans ?_
  rw [w12_lin, w12_src, w12_dst, w12_norm, w12_arg7]
  rfl

end Cert.Gcn.Kernel

end
-- ==== Proof.LibScatterSet.lean ====
/-
  A host scatter whose body returns the update ("set"), read at an index, when the update indices land on pairwise
  distinct operand indices: an operand element some update lands on holds that update, every other element is unchanged.
  The scatter is a left fold over all update indices in row-major order; with distinct landing places the order is immaterial.
-/
import Idealize.ShloMosaic.PureOps.Ideal
import Idealize.ShloMosaic.Lib.ValueIdx

noncomputable section

open scoped BigOperators
open Idealize.ShloMosaic Idealize.ShloMosaic.ValueIdx

namespace Cert.Lib

section Fold

variable {ι κ α : Type} [DecidableEq ι]

/-- A left fold of overwrite steps "set place `g n` to `v n`" leaves a place no step names as it was. -/
theorem foldl_set_miss (g : κ → ι) (v : κ → α) (l : List κ) (r : ι → α) (i : ι) (h : ∀ n ∈ l, g n ≠ i) :
    (l.foldl (fun r n => fun i' => if i' = g n then v n else r i') r) i = r i := by
  induction l generalizing r with
  | nil => rfl
  | cons a l ih =>
    rw [List.foldl_cons, ih _ (fun n hn => h n (List.mem_cons_of_mem _ hn))]
    exact if_neg (fun e => h a List.mem_cons_self e.symm)

/-- If `n₀` is the only step of the list that names the place `g n₀`, and either `n₀` is in the list or the place
    holds `v n₀` to begin with, the fold leaves `v n₀` there: steps before `n₀` are overwritten by it, steps after
    it name other places. -/
theorem foldl_set_hit [DecidableEq κ] (g : κ → ι) (v : κ → α) (l : List κ) (r : ι → α) (n₀ : κ)
    (huniq : ∀ n ∈ l, g n = g n₀ → n = n₀) (h0 : n₀ ∈ l ∨ r (g n₀) = v n₀) :
    (l.foldl (fun r n => fun i' => if i' = g n then v n else r i') r) (g n₀) = v n₀ := by
  induction l generalizing r with
  | nil =>
    rcases h0 with h0 | h0
    · exact absurd h0 List.not_mem_nil
    · exact h0
  | cons a l ih =>
    rw [List.foldl_cons]
    apply ih _ (fun n hn => huniq n (List.mem_cons_of_mem _ hn))
    by_cases ha : a = n₀
    · right
      subst ha
      exact if_pos rfl
    · have hne : g n₀ ≠ g a := fun e => ha (huniq a List.mem_cons_self e.symm)
      rcases h0 with h0 | h0
      · left
        rcases List.mem_cons.1 h0 with h0 | h0
        · exact absurd h0.symm ha
        · exact h0
      · right
        rw [if_neg hne]
        exact h0

end Fold

/-- With every update landing inside the operand, one step of the scatter's fold is an overwrite at the landing place. -/
theorem scatter_set_eq_fold {s si u : Shape} {w : ℕ} {α : Type} (d : ScatterDims s si u) (x : s.Idx → α) (idx : IVec si w)
    (upd : u.Idx → α) (ρ : u.Idx → s.Idx) (hρ : ∀ j, d.resultIdx? j idx = some (ρ j)) :
    Host.scatter d (fun _ b => b) x idx upd
      = (List.finRange u.numel).foldl (fun r n => fun i' =>
          if i' = ρ (u.rowMajor.symm n) then upd (u.rowMajor.symm n) else r i') x := by
  unfold Host.scatter
  congr 1
  funext r n
  rw [hρ]

/-- Where update `j` lands (at `ρ j`, all landing places distinct) the scattered array holds update `j`. -/
theorem scatter_set_hit {s si u : Shape} {w : ℕ} {α : Type} (d : ScatterDims s si u) (x : s.Idx → α) (idx : IVec si w)
    (upd : u.Idx → α) (ρ : u.Idx → s.Idx) (hρ : ∀ j, d.resultIdx? j idx = some (ρ j)) (hinj : Function.Injective ρ) (j : u.Idx) :
    Host.scatter d (fun _ b => b) x idx upd (ρ j) = upd j := by
  rw [scatter_set_eq_fold d x idx upd ρ hρ]
  have h := foldl_set_hit (fun n => ρ (u.rowMajor.symm n)) (fun n => upd (u.rowMajor.symm n))
    (List.finRange u.numel) x (u.rowMajor j)
    (fun n _ e => u.rowMajor.symm.injective (hinj e)) (Or.inl (List.mem_finRange _))
  simpa only [Equiv.symm_apply_apply] using h

/-- Where no update lands the scattered array is the operand. -/
theorem scatter_set_miss {s si u : Shape} {w : ℕ} {α : Type} (d : ScatterDims s si u) (x : s.Idx → α) (idx : IVec si w)
    (upd : u.Idx → α) (ρ : u.Idx → s.Idx) (hρ : ∀ j, d.resultIdx? j idx = some (ρ j)) (i : s.Idx) (hi : ∀ j, ρ j ≠ i) :
    Host.scatter d (fun _ b => b) x idx upd i = x i := by
  rw [scatter_set_eq_fold d x idx upd ρ hρ]
  exact foldl_set_miss (fun n => ρ (u.rowMajor.symm n)) (fun n => upd (u.rowMajor.symm n))
    (List.finRange u.numel) x i (fun n _ => hi _)

end Cert.Lib

end
-- ==== Proof.LibPadRows.lean ====
/-
  Writing a whole block over the top rows of a taller matrix.

  A host scatter whose one index word is 0, whose update is a whole [a, b] matrix (both update axes are window axes,
  nothing inserted, the index naming operand axis 0) and whose body returns the update, into an [a', b] operand with
  a ≤ a': update entry (r, q) lands at operand entry (r, q), all landing places are distinct, so the result holds the
  update on the first a rows and the operand below.
-/
import Idealize.ShloMosaic.PureOps.Ideal
import Idealize.ShloMosaic.Lib.ValueIdx
import proofs.«417703_j66640712565428_3_alg».proof.Proof.LibScatterSet

noncomputable section

namespace Cert.Lib.PadRows

open Idealize.ShloMosaic Idealize.ShloMosaic.ValueIdx

variable {a a' b : ℕ}

/-- Row r of the short matrix as a row of the tall one. -/
def up (hle : a ≤ a') (j : (⟨2, ![a, b]⟩ : Shape).Idx) : (⟨2, ![a', b]⟩ : Shape).Idx :=
  ix2 ⟨(j 0).val, lt_of_lt_of_le (j 0).isLt hle⟩ (j 1)

theorem up_injective (hle : a ≤ a') : Function.Injective (up (b := b) hle) := by
  intro j j' h
  have h0 : (j 0).val = (j' 0).val := congrArg (fun i : (⟨2, ![a', b]⟩ : Shape).Idx => (i 0).val) h
  have h1 : (j 1).val = (j' 1).val := congrArg (fun i : (⟨2, ![a', b]⟩ : Shape).Idx => (i 1).val) h
  funext ax
  match ax with
  | ⟨0, _⟩ => exact Fin.ext h0
  | ⟨1, _⟩ => exact Fin.ext h1

/-- Where update entry j lands: at the same row and column. -/
theorem resultIdx_block (d : ScatterDims ⟨2, ![a', b]⟩ ⟨1, ![1]⟩ ⟨2, ![a, b]⟩)
    (h1 : d.updateWindowDims = [0, 1]) (h2 : d.insertedWindowDims = []) (h3 : d.scatterDimsToOperandDims = [0])
    (h4 : d.indexVectorDim = 0) {w : ℕ} (idx : IVec ⟨1, ![1]⟩ w) (hidx : ∀ k, idx k = 0#w) (hle : a ≤ a')
    (j : (⟨2, ![a, b]⟩ : Shape).Idx) : d.resultIdx? j idx = some (up hle j) := by
  obtain ⟨uw, iw, sd, iv, wf⟩ := d
  simp only at h1 h2 h3 h4
  subst h1 h2 h3 h4
  have hs : ∀ ax, ScatterDims.start ⟨[0, 1], [], [0], 0, wf⟩ j idx ax = 0 := by
    intro ax
    unfold ScatterDims.start
    split
    · rw [hidx]; exact BitVec.toInt_zero
    · rfl
  have hw : ∀ ax, ScatterDims.window ⟨[0, 1], [], [0], 0, wf⟩ j ax = (j ax).val := by
    intro ax
    match ax with
    | ⟨0, _⟩ => rfl
    | ⟨1, _⟩ => rfl
  have hcond : ∀ ax, 0 ≤ ScatterDims.start ⟨[0, 1], [], [0], 0, wf⟩ j idx ax + ScatterDims.window ⟨[0, 1], [], [0], 0, wf⟩ j ax
      ∧ ScatterDims.start ⟨[0, 1], [], [0], 0, wf⟩ j idx ax + ScatterDims.window ⟨[0, 1], [], [0], 0, wf⟩ j ax < (⟨2, ![a', b]⟩ : Shape).size ax := by
    intro ax
    rw [hs, hw]
    match ax with
    | ⟨0, _⟩ =>
      have := (j 0).isLt
      show 0 ≤ (0 : Int) + ((j 0).val : Int) ∧ (0 : Int) + ((j 0).val : Int) < (a' : Int)
      have ha : (j 0).val < a := (j 0).isLt
      omega
    | ⟨1, _⟩ =>
      show 0 ≤ (0 : Int) + ((j 1).val : Int) ∧ (0 : Int) + ((j 1).val : Int) < (b : Int)
      have hb : (j 1).val < b := (j 1).isLt
      omega
  unfold ScatterDims.resultIdx?
  rw [dif_pos hcond]
  refine congrArg some (funext fun ax => Fin.ext ?_)
  show (ScatterDims.start ⟨[0, 1], [], [0], 0, wf⟩ j idx ax + ScatterDims.window ⟨[0, 1], [], [0], 0, wf⟩ j ax).toNat = (up hle j ax).val
  rw [hs, hw]
  match ax with
  | ⟨0, _⟩ => show ((0 : Int) + ((j 0).val : Int)).toNat = (j 0).val; omega
  | ⟨1, _⟩ => show ((0 : Int) + ((j 1).val : Int)).toNat = (j 1).val; omega

/-- On the first a rows the padded matrix holds the short one. -/
theorem scatter_block_top {α : Type} (d : ScatterDims ⟨2, ![a', b]⟩ ⟨1, ![1]⟩ ⟨2, ![a, b]⟩)
    (h1 : d.updateWindowDims = [0, 1]) (h2 : d.insertedWindowDims = []) (h3 : d.scatterDimsToOperandDims = [0])
    (h4 : d.indexVectorDim = 0) {w : ℕ} (idx : IVec ⟨1, ![1]⟩ w) (hidx : ∀ k, idx k = 0#w) (hle : a ≤ a')
    (x : (⟨2, ![a', b]⟩ : Shape).Idx → α) (upd : (⟨2, ![a, b]⟩ : Shape).Idx → α) (j : (⟨2, ![a, b]⟩ : Shape).Idx) :
    Host.scatter d (fun _ v => v) x idx upd (up hle j) = upd j :=
  Cert.Lib.scatter_set_hit d x idx upd (up hle) (resultIdx_block d h1 h2 h3 h4 idx hidx hle) (up_injective hle) j

/-- Below them it holds the operand. -/
theorem scatter_block_below {α : Type} (d : ScatterDims ⟨2, ![a', b]⟩ ⟨1, ![1]⟩ ⟨2, ![a, b]⟩)
    (h1 : d.updateWindowDims = [0, 1]) (h2 : d.insertedWindowDims = []) (h3 : d.scatterDimsToOperandDims = [0])
    (h4 : d.indexVectorDim = 0) {w : ℕ} (idx : IVec ⟨1, ![1]⟩ w) (hidx : ∀ k, idx k = 0#w) (hle : a ≤ a')
    (x : (⟨2, ![a', b]⟩ : Shape).Idx → α) (upd : (⟨2, ![a, b]⟩ : Shape).Idx → α) (i : (⟨2, ![a', b]⟩ : Shape).Idx)
    (hi : a ≤ (i 0).val) : Host.scatter d (fun _ v => v) x idx upd i = x i :=
  Cert.Lib.scatter_set_miss d x idx upd (up hle) (resultIdx_block d h1 h2 h3 h4 idx hidx hle) i
    (fun j e => by
      have h0 : (j 0).val = (i 0).val := congrArg (fun k : (⟨2, ![a', b]⟩ : Shape).Idx => (k 0).val) e
      have hj : (j 0).val < a := (j 0).isLt
      omega)

end Cert.Lib.PadRows

end
-- ==== Proof.Bridge.lean ====
/-
  Padding, a tiled product and cutting back are the plain matrix product.

  On the extended reals, for each of the three layers: write the 50000-row input over the top of a 51200-row matrix of
  zeros, multiply by the weights (the launch's closed form: entry (r, q) is the sum over k of input (r, k) · weight (k, q)),
  and keep the first 50000 rows. Entry (p, q) of the result is the sum over k of input (p, k) · weight (k, q), which is the
  host's contraction of the input with the weights at (p, q).
-/
import proofs.«417703_j66640712565428_3_alg».proof.Proof.Region0
import proofs.«417703_j66640712565428_3_alg».proof.Proof.Region1
import proofs.«417703_j66640712565428_3_alg».proof.Proof.Region2
import proofs.«417703_j66640712565428_3_alg».proof.Proof.RefIsNet
import proofs.«417703_j66640712565428_3_alg».proof.Proof.LibPadRows
import Idealize.ShloMosaic.Lib.Pipeline.Value

set_option maxRecDepth 16384

noncomputable section

namespace Cert.Gcn.Bridge

open Cert.Gcn Cert.KernelIdeal Cert.KernelIdeal.Facts₀ Cert.KernelIdeal.Facts
open Idealize.ShloMosaic Idealize.ShloMosaic.TcCoe Idealize.ShloMosaic.ValueIdx
open scoped BigOperators

/-- Layer 1: the first 50000 rows of the tiled product of the zero-padded input with the weights are the plain
    contraction of the input with the weights. Row p < 50000 of the padded input is row p of the input; the rows below
    are never read. -/
theorem layer1 (x : Arr Ideal S50000x128 .f32) (w : Arr Ideal S128x64 .f32) :
    rows64 (Region0.MM (pad128 x) w) = Ref.lin1 w x := by
  funext i
  obtain ⟨p, q, rfl⟩ : ∃ (p : Fin 50000) (q : Fin 64), i = ix2 p q := ⟨i 0, i 1, eq_ix2 i⟩
  have hp : p.val < 51200 := lt_trans p.isLt (by decide)
  unfold rows64 Ref.lin1
  rw [extractStridedSlice_apply _ _ _ (ix2 p q) (ix2 (⟨p.val, hp⟩ : Fin 51200) q) (fun a => by
    match a with
    | ⟨0, _⟩ => show p.val = 0 + p.val; omega
    | ⟨1, _⟩ => show q.val = 0 + q.val; omega)]
  refine Eq.trans ?_ (Cert.Lib.PlainMatmul.dotGeneral_apply _ rfl rfl rfl rfl rfl rfl none _ x w p q).symm
  unfold Region0.MM
  refine Finset.sum_congr rfl fun k _ => ?_
  have hpad : pad128 x (ix2 (⟨p.val, hp⟩ : Fin 51200) k) = x (ix2 p k) :=
    Cert.Lib.PadRows.scatter_block_top scatter_S51200x128_S1_S50000x128_01_n_0_0 rfl rfl rfl rfl _ (fun _ => rfl) (by decide : 50000 ≤ 51200) _ x (ix2 p k)
  exact congrArg (· * w (ix2 k q)) hpad

/-- Layer 2: the first 50000 rows of the tiled product of the zero-padded input with the weights are the plain
    contraction of the input with the weights. Row p < 50000 of the padded input is row p of the input; the rows below
    are never read. -/
theorem layer2 (x : Arr Ideal S50000x64 .f32) (w : Arr Ideal S64x64 .f32) :
    rows64 (Region1.MM (pad64 x) w) = Ref.lin2 w x := by
  funext i
  obtain ⟨p, q, rfl⟩ : ∃ (p : Fin 50000) (q : Fin 64), i = ix2 p q := ⟨i 0, i 1, eq_ix2 i⟩
  have hp : p.val < 51200 := lt_trans p.isLt (by decide)
  unfold rows64 Ref.lin2
  rw [extractStridedSlice_apply _ _ _ (ix2 p q) (ix2 (⟨p.val, hp⟩ : Fin 51200) q) (fun a => by
    match a with
    | ⟨0, _⟩ => show p.val = 0 + p.val; omega
    | ⟨1, _⟩ => show q.val = 0 + q.val; omega)]
  refine Eq.trans ?_ (Cert.Lib.PlainMatmul.dotGeneral_apply _ rfl rfl rfl rfl rfl rfl none _ x w p q).symm
  unfold Region1.MM
  refine Finset.sum_congr rfl fun k _ => ?_
  have hpad : pad64 x (ix2 (⟨p.val, hp⟩ : Fin 51200) k) = x (ix2 p k) :=
    Cert.Lib.PadRows.scatter_block_top scatter_S51200x64_S1_S50000x64_01_n_0_0 rfl rfl rfl rfl _ (fun _ => rfl) (by decide : 50000 ≤ 51200) _ x (ix2 p k)
  exact congrArg (· * w (ix2 k q)) hpad

/-- Layer 3: the first 50000 rows of the tiled product of the zero-padded input with the weights are the plain
    contraction of the input with the weights. Row p < 50000 of the padded input is row p of the input; the rows below
    are never read. -/
theorem layer3 (x : Arr Ideal S50000x64 .f32) (w : Arr Ideal S64x40 .f32) :
    rows40 (Region2.MM (pad64 x) w) = Ref.lin3 w x := by
  funext i
  obtain ⟨p, q, rfl⟩ : ∃ (p : Fin 50000) (q : Fin 40), i = ix2 p q := ⟨i 0, i 1, eq_ix2 i⟩
  have hp : p.val < 51200 := lt_trans p.isLt (by decide)
  unfold rows40 Ref.lin3
  rw [extractStridedSlice_apply _ _ _ (ix2 p q) (ix2 (⟨p.val, hp⟩ : Fin 51200) q) (fun a => by
    match a with
    | ⟨0, _⟩ => show p.val = 0 + p.val; omega
    | ⟨1, _⟩ => show q.val = 0 + q.val; omega)]
  refine Eq.trans ?_ (Cert.Lib.PlainMatmul.dotGeneral_apply _ rfl rfl rfl rfl rfl rfl none _ x w p q).symm
  unfold Region2.MM
  refine Finset.sum_congr rfl fun k _ => ?_
  have hpad : pad64 x (ix2 (⟨p.val, hp⟩ : Fin 51200) k) = x (ix2 p k) :=
    Cert.Lib.PadRows.scatter_block_top scatter_S51200x64_S1_S50000x64_01_n_0_0 rfl rfl rfl rfl _ (fun _ => rfl) (by decide : 50000 ≤ 51200) _ x (ix2 p k)
  exact congrArg (· * w (ix2 k q)) hpad

end Cert.Gcn.Bridge

end
-- ==== Proof.lean ====
/-
  A three-layer graph convolution over 50000 nodes and 800000 edges (plus one self loop per node), computed two ways.

  Both programs build the same edge lists and edge weights from the integer edge list, and both run, three times,
  "linear layer, gather the rows at the edges' sources, scale by the edge weights, add up at the edges' targets, add the
  bias" with a rectifier after the first two. They differ only in the linear layer: one contracts the 50000-row layer
  input with the weight matrix directly; the other writes the input over the top of a 51200-row matrix of zeros,
  multiplies 25 tiles of 2048 rows each by the weights (through a narrower float format, which on the extended reals is the
  identity), and keeps the first 50000 rows of the product.

  On the extended reals the two linear layers are one function: row p < 50000 of the padded matrix is row p of the input,
  a tile's product into a zero accumulator is the plain sum of products, the 25 tiles cover the 51200 rows, and the
  rows past 50000 are never read back. Nothing else differs, so the two results agree whatever the edge list holds
  (the same gathers and scatters meet the same index words on both sides) and whatever the float inputs are: no law
  of arithmetic that needs finiteness is used, and the precondition is not opened.

  The three frames are the generated ones (the reference's is its run with the result dropped); the idealization
  rewrote no operation, so `preserves` is trivial.
-/
import proofs.«417703_j66640712565428_3_alg».proof.Defs
import proofs.«417703_j66640712565428_3_alg».proof.Proof.Gen.Kernel
import proofs.«417703_j66640712565428_3_alg».proof.Proof.Gen.Kernel.Skeleton
import proofs.«417703_j66640712565428_3_alg».proof.Proof.Gen.Kernel.Launch
import proofs.«417703_j66640712565428_3_alg».proof.Proof.Gen.Kernel.Points
import proofs.«417703_j66640712565428_3_alg».proof.Proof.Gen.Kernel.Frame
import proofs.«417703_j66640712565428_3_alg».proof.Proof.Gen.KernelIdeal
import proofs.«417703_j66640712565428_3_alg».proof.Proof.Gen.KernelIdeal.Skeleton
import proofs.«417703_j66640712565428_3_alg».proof.Proof.Gen.KernelIdeal.Launch
import proofs.«417703_j66640712565428_3_alg».proof.Proof.Gen.KernelIdeal.Points
import proofs.«417703_j66640712565428_3_alg».proof.Proof.Gen.KernelIdeal.Frame
import proofs.«417703_j66640712565428_3_alg».proof.Proof.Gen.ReferenceIdeal
import proofs.«417703_j66640712565428_3_alg».proof.Proof.Gen.Pre_finite_inputs
import proofs.«417703_j66640712565428_3_alg».proof.Proof.RefRun
import proofs.«417703_j66640712565428_3_alg».proof.Proof.RefIsNet
import proofs.«417703_j66640712565428_3_alg».proof.Proof.KernelRun
import proofs.«417703_j66640712565428_3_alg».proof.Proof.KernelValue
import proofs.«417703_j66640712565428_3_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The two linear layers of each depth are one function on the extended reals. -/
theorem lin1_eq (w : Cert.Gcn.Arr Ideal Cert.KernelIdeal.S128x64 .f32) : Cert.Gcn.Ref.lin1 w = Cert.Gcn.Kernel.klin1 w :=
  funext fun x => (Cert.Gcn.Bridge.layer1 x w).symm
theorem lin2_eq (w : Cert.Gcn.Arr Ideal Cert.KernelIdeal.S64x64 .f32) : Cert.Gcn.Ref.lin2 w = Cert.Gcn.Kernel.klin2 w :=
  funext fun x => (Cert.Gcn.Bridge.layer2 x w).symm
theorem lin3_eq (w : Cert.Gcn.Arr Ideal Cert.KernelIdeal.S64x40 .f32) : Cert.Gcn.Ref.lin3 w = Cert.Gcn.Kernel.klin3 w :=
  funext fun x => (Cert.Gcn.Bridge.layer3 x w).symm

/-- Both programs end with the network of their own linear layers of the same arguments; the layers are equal. -/
theorem algebraic : Cert.algebraic_KernelIdeal_ReferenceIdeal := by
  intro m ρ m' ρ' _ hagree
  refine ⟨fun c => Cert.KernelIdeal.Gen.W13 m ρ c (Proc.devRef .tc Cert.KernelIdeal.main_v96),
    Cert.KernelIdeal.GenRun.run_W13 m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  refine Eq.trans ?_ (Cert.Gcn.Kernel.out_eq m ρ c).symm
  rw [Cert.Gcn.Ref.res_eq, a0, a1, a2, a3, a4, a5, a6, a7, lin1_eq, lin2_eq, lin3_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
